-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S16000x2048 : Shape := ⟨2, ![16000, 2048]⟩
abbrev S16000 : Shape := ⟨1, ![16000]⟩
abbrev S16x50000 : Shape := ⟨2, ![16, 50000]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S16000x2048 : S_.BroadcastsInDim S16000x2048 (![] : Fin 0 → Fin S16000x2048.rank)
  reducesTo_S16000x2048_S_d0_1 : S16000x2048.ReducesTo [0, 1] S_
  bcast_S_S16000 : S_.BroadcastsInDim S16000 (![] : Fin 0 → Fin S16000.rank)
  reducesTo_S16000_S_d0 : S16000.ReducesTo [0] S_
  bcast_S_S16x50000 : S_.BroadcastsInDim S16x50000 (![] : Fin 0 → Fin S16x50000.rank)
  reducesTo_S16x50000_S_d0_1 : S16x50000.ReducesTo [0, 1] S_

variable [Facts]

def fn_part1 {F : FTy → Type} [FloatOps F] (main_arg3 : IVec S16x50000 32) (main_v13 : IVec S_ 1) (main_v16 : IVec S16x50000 32) : IVec S_ 1 :=
  let main_v17 : IVec S16x50000 1 := cmpi .sge main_arg3 main_v16
  let main_v18 : IVec S16x50000 32 := iotaInDim S16x50000 32 0
  let main_c_5 : IVec S_ 32 := constantI S_ 32 1000#32
  let main_v19 : IVec S16x50000 32 := broadcastInDim S16x50000 ![] bcast_S_S16x50000 main_c_5
  let main_v20 : IVec S16x50000 32 := muli main_v18 main_v19
  let main_c_6 : IVec S_ 32 := constantI S_ 32 1000#32
  let main_v21 : IVec S16x50000 32 := broadcastInDim S16x50000 ![] bcast_S_S16x50000 main_c_6
  let main_v22 : IVec S16x50000 32 := addi main_v20 main_v21
  let main_v23 : IVec S16x50000 1 := cmpi .slt main_arg3 main_v22
  let main_v24 : IVec S16x50000 1 := andi main_v17 main_v23
  let main_c_7 : IVec S_ 1 := constantI S_ 1 1#1
  let main_v25 : IVec S_ 1 := (fun x v => Host.reduce IntOp.andi x v reducesTo_S16x50000_S_d0_1 h_S_) main_v24 main_c_7
  let main_v26 : IVec S_ 1 := andi main_v13 main_v25
  main_v26

def fn {F : FTy → Type} [FloatOps F] (main_arg0 : FVec F S64x2048 .f32) (main_arg1 : FVec F S16000x2048 .f32) (main_arg2 : FVec F S16000 .f32) (main_arg3 : IVec S16x50000 32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S16000x2048 .f32 := Host.absf main_arg1
  let main_cst_0 : FVec F S_ .f32 := constant S_ .f32 0x7F800000#32
  let main_v5 : FVec F S16000x2048 .f32 := broadcastInDim S16000x2048 ![] bcast_S_S16000x2048 main_cst_0
  let main_v6 : IVec S16000x2048 1 := cmpf .olt main_v4 main_v5
  let main_c_1 : IVec S_ 1 := constantI S_ 1 1#1
  let main_v7 : IVec S_ 1 := (fun x v => Host.reduce IntOp.andi x v reducesTo_S16000x2048_S_d0_1 h_S_) main_v6 main_c_1
  let main_v8 : IVec S_ 1 := andi main_v3 main_v7
  let main_v9 : FVec F S16000 .f32 := Host.absf main_arg2
  let main_cst_2 : FVec F S_ .f32 := constant S_ .f32 0x7F800000#32
  let main_v10 : FVec F S16000 .f32 := broadcastInDim S16000 ![] bcast_S_S16000 main_cst_2
  let main_v11 : IVec S16000 1 := cmpf .olt main_v9 main_v10
  let main_c_3 : IVec S_ 1 := constantI S_ 1 1#1
  let main_v12 : IVec S_ 1 := (fun x v => Host.reduce IntOp.andi x v reducesTo_S16000_S_d0 h_S_) main_v11 main_c_3
  let main_v13 : IVec S_ 1 := andi main_v8 main_v12
  let main_v14 : IVec S16x50000 32 := iotaInDim S16x50000 32 0
  let main_c_4 : IVec S_ 32 := constantI S_ 32 1000#32
  let main_v15 : IVec S16x50000 32 := broadcastInDim S16x50000 ![] bcast_S_S16x50000 main_c_4
  let main_v16 : IVec S16x50000 32 := muli main_v14 main_v15
  fn_part1 (F := F) main_arg3 main_v13 main_v16
-- ==== Kernel.lean ====
abbrev S64x2048 : Shape := ⟨2, ![64, 2048]⟩
abbrev S16000x2048 : Shape := ⟨2, ![16000, 2048]⟩
abbrev S16000 : Shape := ⟨1, ![16000]⟩
abbrev S16x50000 : Shape := ⟨2, ![16, 50000]⟩
abbrev S16x1000x2048 : Shape := ⟨3, ![16, 1000, 2048]⟩
abbrev S16x1x1000 : Shape := ⟨3, ![16, 1, 1000]⟩
abbrev S16x64x1000 : Shape := ⟨3, ![16, 64, 1000]⟩
abbrev S1x1000x2048 : Shape := ⟨3, ![1, 1000, 2048]⟩
abbrev S1x1x1000 : Shape := ⟨3, ![1, 1, 1000]⟩
abbrev S1x64x1000 : Shape := ⟨3, ![1, 64, 1000]⟩
abbrev S1000x2048 : Shape := ⟨2, ![1000, 2048]⟩
abbrev S64x1000 : Shape := ⟨2, ![64, 1000]⟩
abbrev S1x1000 : Shape := ⟨2, ![1, 1000]⟩
abbrev S64 : Shape := ⟨1, ![64]⟩
abbrev S64x1 : Shape := ⟨2, ![64, 1]⟩
abbrev S_ : Shape := ⟨0, ![]⟩
abbrev S16x50176 : Shape := ⟨2, ![16, 50176]⟩
abbrev S16x1x50176 : Shape := ⟨3, ![16, 1, 50176]⟩
abbrev S64x50176 : Shape := ⟨2, ![64, 50176]⟩
abbrev S16x1x1024 : Shape := ⟨3, ![16, 1, 1024]⟩
abbrev S64x1024 : Shape := ⟨2, ![64, 1024]⟩
abbrev S1000x1024 : Shape := ⟨2, ![1000, 1024]⟩
abbrev S1x1x1024 : Shape := ⟨3, ![1, 1, 1024]⟩
abbrev S1024 : Shape := ⟨1, ![1024]⟩
abbrev S1x1024 : Shape := ⟨2, ![1, 1024]⟩
abbrev S64x50000 : Shape := ⟨2, ![64, 50000]⟩

abbrev nBuf : Space → Nat
  | .hbm => 15
  | .vmem => 18
  | .smem => 0
  | _ => 0

abbrev bufTy : (tb : Table) → Fin (tcTables nBuf tb) → BufTy
  | .hbm, ⟨0, _⟩ => ⟨S64x2048, .f32⟩
  | .hbm, ⟨1, _⟩ => ⟨S16000x2048, .f32⟩
  | .hbm, ⟨2, _⟩ => ⟨S16000, .f32⟩
  | .hbm, ⟨3, _⟩ => ⟨S16x50000, .i32⟩
  | .hbm, ⟨4, _⟩ => ⟨S16x1000x2048, .f32⟩
  | .hbm, ⟨5, _⟩ => ⟨S16x1x1000, .f32⟩
  | .hbm, ⟨6, _⟩ => ⟨S16x64x1000, .f32⟩
  | .hbm, ⟨7, _⟩ => ⟨S_, .i32⟩
  | .hbm, ⟨8, _⟩ => ⟨S_, .i32⟩
  | .hbm, ⟨9, _⟩ => ⟨S16x50176, .i32⟩
  | .hbm, ⟨10, _⟩ => ⟨S16x1x50176, .i32⟩
  | .hbm, ⟨11, _⟩ => ⟨S64x50176, .f32⟩
  | .hbm, ⟨12, _⟩ => ⟨S64x1, .f32⟩
  | .hbm, ⟨13, _⟩ => ⟨S64x50176, .f32⟩
  | .hbm, ⟨14, _⟩ => ⟨S64x50000, .f32⟩
  | .local _ .vmem, ⟨0, _⟩ => ⟨S64x2048, .f32⟩
  | .local _ .vmem, ⟨1, _⟩ => ⟨S1x1000x2048, .f32⟩
  | .local _ .vmem, ⟨2, _⟩ => ⟨S1x1000x2048, .f32⟩
  | .local _ .vmem, ⟨3, _⟩ => ⟨S1x1x1000, .f32⟩
  | .local _ .vmem, ⟨4, _⟩ => ⟨S1x1x1000, .f32⟩
  | .local _ .vmem, ⟨5, _⟩ => ⟨S1x64x1000, .f32⟩
  | .local _ .vmem, ⟨6, _⟩ => ⟨S1x64x1000, .f32⟩
  | .local _ .vmem, ⟨7, _⟩ => ⟨S16x1x1024, .i32⟩
  | .local _ .vmem, ⟨8, _⟩ => ⟨S16x1x1024, .i32⟩
  | .local _ .vmem, ⟨9, _⟩ => ⟨S16x64x1000, .f32⟩
  | .local _ .vmem, ⟨10, _⟩ => ⟨S64x1024, .f32⟩
  | .local _ .vmem, ⟨11, _⟩ => ⟨S64x1024, .f32⟩
  | .local _ .vmem, ⟨12, _⟩ => ⟨S64x1, .f32⟩
  | .local _ .vmem, ⟨13, _⟩ => ⟨S64x1024, .f32⟩
  | .local _ .vmem, ⟨14, _⟩ => ⟨S64x1024, .f32⟩
  | .local _ .vmem, ⟨15, _⟩ => ⟨S64x1, .f32⟩
  | .local _ .vmem, ⟨16, _⟩ => ⟨S64x1024, .f32⟩
  | .local _ .vmem, ⟨17, _⟩ => ⟨S64x1024, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1000x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![49], ![false]⟩

@[reducible] def k1_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k1_off1 (k1_t1 : Fin k1_t1_loop.trips) : Fin 3 → Nat :=
  let c0_i32 : BitVec 32 := 0#32
  let c1_i32 : BitVec 32 := 1#32
  let arg5 : BitVec 32 := Scf.iv c0_i32 c1_i32 k1_t1
  let v22 : Index := Scalar.indexCast arg5
  let c0_10 : Index := 0#32
  let c0_11 : Index := 0#32
  ![v22.toNat, 0, 0]
def k1_off2 (k1_t1 : Fin k1_t1_loop.trips) : Fin 3 → Nat :=
  let c0_i32 : BitVec 32 := 0#32
  let c1_i32 : BitVec 32 := 1#32
  let arg5 : BitVec 32 := Scf.iv c0_i32 c1_i32 k1_t1
  let v34 : Index := Scalar.indexCast arg5
  let c0_12 : Index := 0#32
  let c0_13 : Index := 0#32
  ![v34.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S64x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S64x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S16000x2048_S16x1000x2048 : S16000x2048.ShapeCasts S16x1000x2048
  shapeCasts_S16000_S16x1x1000 : S16000.ShapeCasts S16x1x1000
  inb_S64x2048_S64x2048_0_0 : ∀ a, (![0, 0] : Fin 2 → Nat) a + S64x2048.size a ≤ S64x2048.size a
  h_S64x2048 : 0 < S64x2048.numel
  bitsLt_bf16_f32 : FTy.bits .bf16 < FTy.bits .f32
  inb_S1x1000x2048_S1x1000x2048_0_0_0 : ∀ a, (![0, 0, 0] : Fin 3 → Nat) a + S1x1000x2048.size a ≤ S1x1000x2048.size a
  h_S1x1000x2048 : 0 < S1x1000x2048.numel
  shapeCasts_S1x1000x2048_S1000x2048 : S1x1000x2048.ShapeCasts S1000x2048
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1x1000 : S1x1x1000.ShapeCasts S1x1000
  broadcasts_S1x1000_S64x1000 : S1x1000.Broadcasts S64x1000
  reduces_S64x1000_S64 : S64x1000.Reduces [1] S64
  shapeCasts_S64_S64x1 : S64.ShapeCasts S64x1
  broadcasts_S64x1_S64x1000 : S64x1.Broadcasts S64x1000
  inb_S1x64x1000_S1x64x1000_0_0_0 : ∀ a, (![0, 0, 0] : Fin 3 → Nat) a + S1x64x1000.size a ≤ S1x64x1000.size a
  h_S1x64x1000 : 0 < S1x64x1000.numel
  shapeCasts_S1x64x1000_S64x1000 : S1x64x1000.ShapeCasts S64x1000
  shapeCasts_S64x1000_S1x64x1000 : S64x1000.ShapeCasts S1x64x1000
  pads_S16x50000_S16x50176_000_01760 : S16x50000.Pads (![0, 0] : Fin 2 → Nat) ![0, 176] ![0, 0] S16x50176
  h_S_ : 0 < S_.numel
  shapeCasts_S16x50176_S16x1x50176 : S16x50176.ShapeCasts S16x1x50176
  iota_S1000x1024_d0_w32 : S1000x1024.Iotas .tc 32 [0]
  h_S1x1x1024 : 0 < S1x1x1024.numel
  shapeCasts_S1x1x1024_S1024 : S1x1x1024.ShapeCasts S1024
  shapeCasts_S1024_S1x1024 : S1024.ShapeCasts S1x1024
  broadcasts_S1x1024_S1000x1024 : S1x1024.Broadcasts S1000x1024
  natLt_1_32 : 1 < 32
  inb_S64x1024_S64x1024_0_0 : ∀ a, (![0, 0] : Fin 2 → Nat) a + S64x1024.size a ≤ S64x1024.size a
  h_S64x1024 : 0 < S64x1024.numel
  iota_S64x1024_d1_w32 : S64x1024.Iotas .tc 32 [1]
  reduces_S64x1024_S64 : S64x1024.Reduces [1] S64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x1024_S64x1024 : S64x1024.ShapeCasts S64x1024
  broadcasts_S64x1_S64x1024 : S64x1.Broadcasts S64x1024
  slices_S64x50176_S64x50000_0_0 : S64x50176.Slices ![0, 0] S64x50000
  dot_S64x2048_S1000x2048_S64x1000_1_1_0_0_n_n_wf : DotDims.WF S64x2048 S1000x2048 S64x1000 [1] [1] [0] [0] [] []
  dot_S64x1000_S1000x1024_S64x1024_1_0_0_1_n_n_wf : DotDims.WF S64x1000 S1000x1024 S64x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x2048.size a
  hwx0_0 : ∀ i : grid0.Coords, EltTy.bits .f32 = 32 ∨ (Rect.block (s := S64x2048) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x2048.size a ≤ S16x1000x2048.size a
  hwx0_1 : ∀ i : grid0.Coords, EltTy.bits .f32 = 32 ∨ (Rect.block (s := S16x1000x2048) S1x1000x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1000.size a ≤ S16x1x1000.size a
  hwx0_2 : ∀ i : grid0.Coords, EltTy.bits .f32 = 32 ∨ (Rect.block (s := S16x1x1000) S1x1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1000.size a ≤ S16x64x1000.size a
  hwx0_3 : ∀ i : grid0.Coords, EltTy.bits .f32 = 32 ∨ (Rect.block (s := S16x64x1000) S1x64x1000.size (cc0_transform_3 i) (hinb0_3 i)).WholeWords (EltTy.packing .f32)
  hrank1 : 0 < grid1.rank
  k1_t1_ok : k1_t1_loop.OK
  k1_off1_inb : ∀ k1_t1 : Fin k1_t1_loop.trips, ∀ a, (k1_off1 k1_t1) a + S1x1x1024.size a ≤ S16x1x1024.size a
  k1_off2_inb : ∀ k1_t1 : Fin k1_t1_loop.trips, ∀ a, (k1_off2 k1_t1) a + S1x64x1000.size a ≤ S16x64x1000.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x1x1024.size a ≤ S16x1x50176.size a
  hwx1_0 : ∀ i : grid1.Coords, EltTy.bits .i32 = 32 ∨ (Rect.block (s := S16x1x50176) S16x1x1024.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64x1000.size a ≤ S16x64x1000.size a
  hwx1_1 : ∀ i : grid1.Coords, EltTy.bits .f32 = 32 ∨ (Rect.block (s := S16x64x1000) S16x64x1000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1024.size a ≤ S64x50176.size a
  hwx1_2 : ∀ i : grid1.Coords, EltTy.bits .f32 = 32 ∨ (Rect.block (s := S64x50176) S64x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x1024.size a ≤ S64x50176.size a
  hwx2_0 : ∀ i : grid2.Coords, EltTy.bits .f32 = 32 ∨ (Rect.block (s := S64x50176) S64x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x1024.size a ≤ S64x50176.size a
  hwx2_2 : ∀ i : grid2.Coords, EltTy.bits .f32 = 32 ∨ (Rect.block (s := S64x50176) S64x1024.size (cc2_transform_2 i) (hinb2_2 i)).WholeWords (EltTy.packing .f32)

variable [Facts₀]

def dot_S64x2048_S1000x2048_S64x1000_1_1_0_0_n_n : DotDims S64x2048 S1000x2048 S64x1000 where
  lhsContracting := [1]
  rhsContracting := [1]
  lhsNonContracting := [0]
  rhsNonContracting := [0]
  lhsBatch := []
  rhsBatch := []
  wf := dot_S64x2048_S1000x2048_S64x1000_1_1_0_0_n_n_wf
def dot_S64x1000_S1000x1024_S64x1024_1_0_0_1_n_n : DotDims S64x1000 S1000x1024 S64x1024 where
  lhsContracting := [1]
  rhsContracting := [0]
  lhsNonContracting := [0]
  rhsNonContracting := [1]
  lhsBatch := []
  rhsBatch := []
  wf := dot_S64x1000_S1000x1024_S64x1024_1_0_0_1_n_n_wf

abbrev win0_0 : Pipeline.Window sig grid0 :=
  Pipeline.Window.ofSpec (Memref.whole main_arg0) S64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1000x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S16x1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S16x64x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S64x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S64x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5_0) S64x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_1) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S64x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S64x2048 : Shape := ⟨2, ![64, 2048]⟩
abbrev S16000x2048 : Shape := ⟨2, ![16000, 2048]⟩
abbrev S16000 : Shape := ⟨1, ![16000]⟩
abbrev S16x50000 : Shape := ⟨2, ![16, 50000]⟩
abbrev S64x16000 : Shape := ⟨2, ![64, 16000]⟩
abbrev S1x16000 : Shape := ⟨2, ![1, 16000]⟩
abbrev S64x16x1000 : Shape := ⟨3, ![64, 16, 1000]⟩
abbrev S_ : Shape := ⟨0, ![]⟩
abbrev S64x16 : Shape := ⟨2, ![64, 16]⟩
abbrev S64x16x1 : Shape := ⟨3, ![64, 16, 1]⟩
abbrev S800000 : Shape := ⟨1, ![800000]⟩
abbrev S800000x1 : Shape := ⟨2, ![800000, 1]⟩
abbrev S64x800000 : Shape := ⟨2, ![64, 800000]⟩
abbrev S64x16x50000 : Shape := ⟨3, ![64, 16, 50000]⟩
abbrev S64x50000 : Shape := ⟨2, ![64, 50000]⟩
abbrev S64 : Shape := ⟨1, ![64]⟩
abbrev S64x1 : Shape := ⟨2, ![64, 1]⟩

abbrev nBuf : Space → Nat
  | .hbm => 48
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S16000x2048, .f32⟩
  | .hbm, ⟨2, _⟩ => ⟨S16000, .f32⟩
  | .hbm, ⟨3, _⟩ => ⟨S16x50000, .i32⟩
  | .hbm, ⟨4, _⟩ => ⟨S64x16000, .f32⟩
  | .hbm, ⟨5, _⟩ => ⟨S1x16000, .f32⟩
  | .hbm, ⟨6, _⟩ => ⟨S64x16000, .f32⟩
  | .hbm, ⟨7, _⟩ => ⟨S64x16000, .f32⟩
  | .hbm, ⟨8, _⟩ => ⟨S64x16x1000, .f32⟩
  | .hbm, ⟨9, _⟩ => ⟨S_, .f32⟩
  | .hbm, ⟨10, _⟩ => ⟨S64x16, .f32⟩
  | .hbm, ⟨11, _⟩ => ⟨S_, .f32⟩
  | .hbm, ⟨12, _⟩ => ⟨S64x16, .f32⟩
  | .hbm, ⟨13, _⟩ => ⟨S64x16, .f32⟩
  | .hbm, ⟨14, _⟩ => ⟨S64x16x1, .f32⟩
  | .hbm, ⟨15, _⟩ => ⟨S64x16x1000, .f32⟩
  | .hbm, ⟨16, _⟩ => ⟨S64x16x1000, .f32⟩
  | .hbm, ⟨17, _⟩ => ⟨S64x16x1000, .f32⟩
  | .hbm, ⟨18, _⟩ => ⟨S_, .f32⟩
  | .hbm, ⟨19, _⟩ => ⟨S64x16, .f32⟩
  | .hbm, ⟨20, _⟩ => ⟨S64x16x1, .f32⟩
  | .hbm, ⟨21, _⟩ => ⟨S64x16x1, .f32⟩
  | .hbm, ⟨22, _⟩ => ⟨S64x16x1000, .f32⟩
  | .hbm, ⟨23, _⟩ => ⟨S64x16x1000, .f32⟩
  | .hbm, ⟨24, _⟩ => ⟨S64x16x1000, .f32⟩
  | .hbm, ⟨25, _⟩ => ⟨S64x16000, .f32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S64x800000, .f32⟩
  | .hbm, ⟨36, _⟩ => ⟨S64x16x50000, .f32⟩
  | .hbm, ⟨37, _⟩ => ⟨S_, .f32⟩
  | .hbm, ⟨38, _⟩ => ⟨S64x50000, .f32⟩
  | .hbm, ⟨39, _⟩ => ⟨S_, .f32⟩
  | .hbm, ⟨40, _⟩ => ⟨S64, .f32⟩
  | .hbm, ⟨41, _⟩ => ⟨S64x1, .f32⟩
  | .hbm, ⟨42, _⟩ => ⟨S64x50000, .f32⟩
  | .hbm, ⟨43, _⟩ => ⟨S64x50000, .f32⟩
  | .hbm, ⟨44, _⟩ => ⟨S_, .f32⟩
  | .hbm, ⟨45, _⟩ => ⟨S64x50000, .f32⟩
  | .hbm, ⟨46, _⟩ => ⟨S64x50000, .f32⟩
  | .hbm, ⟨47, _⟩ => ⟨S64x50000, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩

abbrev nD : Nat := 1
abbrev τ : Topo := Topo.v7x

variable {F : FTy → Type} [FloatOps F]

class Facts₀ : Prop where
  bcast_S16000_S1x16000_1 : S16000.BroadcastsInDim S1x16000 (![1] : Fin 1 → Fin S1x16000.rank)
  bcast_S1x16000_S64x16000_0_1 : S1x16000.BroadcastsInDim S64x16000 (![0, 1] : Fin 2 → Fin S64x16000.rank)
  shapeCasts_S64x16000_S64x16x1000 : S64x16000.ShapeCasts S64x16x1000
  reducesTo_S64x16x1000_S64x16_d2 : S64x16x1000.ReducesTo [2] S64x16
  h_S_ : 0 < S_.numel
  bcast_S_S64x16 : S_.BroadcastsInDim S64x16 (![] : Fin 0 → Fin S64x16.rank)
  bcast_S64x16_S64x16x1_0_1 : S64x16.BroadcastsInDim S64x16x1 (![0, 1] : Fin 2 → Fin S64x16x1.rank)
  bcast_S64x16x1_S64x16x1000_0_1_2 : S64x16x1.BroadcastsInDim S64x16x1000 (![0, 1, 2] : Fin 3 → Fin S64x16x1000.rank)
  shapeCasts_S64x16x1000_S64x16000 : S64x16x1000.ShapeCasts S64x16000
  shapeCasts_S16x50000_S800000 : S16x50000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  shapeCasts_S64x800000_S64x16x50000 : S64x800000.ShapeCasts S64x16x50000
  reducesTo_S64x16x50000_S64x50000_d1 : S64x16x50000.ReducesTo [1] S64x50000
  reducesTo_S64x50000_S64_d1 : S64x50000.ReducesTo [1] S64
  bcast_S64_S64x1_0 : S64.BroadcastsInDim S64x1 (![0] : Fin 1 → Fin S64x1.rank)
  bcast_S64x1_S64x50000_0_1 : S64x1.BroadcastsInDim S64x50000 (![0, 1] : Fin 2 → Fin S64x50000.rank)
  bcast_S_S64x50000 : S_.BroadcastsInDim S64x50000 (![] : Fin 0 → Fin S64x50000.rank)
  dot_S64x2048_S16000x2048_S64x16000_1_1_0_0_n_n_wf : DotDims.WF S64x2048 S16000x2048 S64x16000 [1] [1] [0] [0] [] []
  gather_S64x16000_S800000x1_S64x800000_0_1_n_n_1_1_641_wf : GatherDims.WF S64x16000 S800000x1 S64x800000 [0] [1] [] [1] [] 1 ![64, 1]

variable [Facts₀]

def dot_S64x2048_S16000x2048_S64x16000_1_1_0_0_n_n : DotDims S64x2048 S16000x2048 S64x16000 where
  lhsContracting := [1]
  rhsContracting := [1]
  lhsNonContracting := [0]
  rhsNonContracting := [0]
  lhsBatch := []
  rhsBatch := []
  wf := dot_S64x2048_S16000x2048_S64x16000_1_1_0_0_n_n_wf
def gather_S64x16000_S800000x1_S64x800000_0_1_n_n_1_1_641 : GatherDims S64x16000 S800000x1 S64x800000 where
  offsetDims := [0]
  collapsedSliceDims := [1]
  operandBatchingDims := []
  startIndicesBatchingDims := []
  startIndexMap := [1]
  indexVectorDim := 1
  sliceSizes := ![64, 1]
  wf := gather_S64x16000_S800000x1_S64x800000_0_1_n_n_1_1_641_wf

class Facts : Prop extends Facts₀ where

variable [Facts]
-- ==== Proof.Spec.lean ====
/-
  The mathematics of the combinatorial classifier, index by index over the extended reals, with no program in sight.

  Three stages.  (1) For each of the 16 partitionings p, a softmax over its 1000 partitions of the logits
  x Wᵀ + b.  (2) For each class c, the sum over the partitionings of the probability of the partition the class
  falls in, stated twice: once as the kernel computes it (a product with a one-hot column, so a sum over all 1000
  partitions of probability times "is this the class's partition"), once as the reference does (a lookup in the flat
  table of 16000 probabilities).  (3) Each row renormalised by its sum over the 50000 classes, a small constant added,
  and the logarithm taken.

  The kernel-side functions take the arrays in the kernel's layout (weights as [16,1000,2048], bias as [16,1,1000],
  the partition map padded with zero columns to 50176 and kept as [16,1,50176]); the reference-side ones take them as
  the entry point receives them.
-/
import Idealize.ShloMosaic.PureOps.Ideal
import Idealize.ShloMosaic.Lib.ValueIdx

noncomputable section

open scoped BigOperators

namespace Cert.Spec

open Idealize.ShloMosaic Idealize.ShloMosaic.ValueIdx

/-- The added constant, as both programs carry it (the same word on both sides: never evaluated). -/
abbrev eps : EReal := Ideal.ofBits .f32 0x1E3CE508#32
/-- The value a maximum starts from (the word of -∞, on both sides). -/
abbrev negInf : EReal := Ideal.ofBits .f32 0xFF800000#32

/-! ## Stage 1 in the kernel's layout: one softmax per (partitioning, batch row) -/

section Kernel1
variable (x : FVec Ideal ⟨2, ![64, 2048]⟩ .f32) (w3 : FVec Ideal ⟨3, ![16, 1000, 2048]⟩ .f32)
  (b3 : FVec Ideal ⟨3, ![16, 1, 1000]⟩ .f32)

/-- The logit of batch row r for partition k of partitioning p. -/
def logit (p : Fin 16) (r : Fin 64) (k : Fin 1000) : EReal :=
  (∑ d : Fin 2048, x (ix2 r d) * w3 (ix3 p k d)) + b3 (ix3 p 0 k)
/-- The largest logit of the row within the partitioning. -/
def rowMax (p : Fin 16) (r : Fin 64) : EReal :=
  (Finset.univ : Finset (Fin 1000)).fold max negInf (fun k => logit x w3 b3 p r k)
/-- The shifted exponential. -/
def expo (p : Fin 16) (r : Fin 64) (k : Fin 1000) : EReal := Ideal.exp (logit x w3 b3 p r k - rowMax x w3 b3 p r)
/-- The normaliser of the row within the partitioning. -/
def denom (p : Fin 16) (r : Fin 64) : EReal := ∑ k : Fin 1000, expo x w3 b3 p r k
/-- The probability of partition k. -/
def prob (p : Fin 16) (r : Fin 64) (k : Fin 1000) : EReal := Ideal.div (expo x w3 b3 p r k) (denom x w3 b3 p r)
/-- The probabilities as the array the first kernel writes, laid out [partitioning, batch row, partition]. -/
def probArr : FVec Ideal ⟨3, ![16, 64, 1000]⟩ .f32 := fun i => prob x w3 b3 (i 0) (i 1) (i 2)

end Kernel1

/-! ## Stage 2 as the kernel computes it: a one-hot product, then the masked row sums tile by tile -/

section Kernel2
variable (pp : IVec ⟨3, ![16, 1, 50176]⟩ 32) (P : FVec Ideal ⟨3, ![16, 64, 1000]⟩ .f32)

/-- One entry of the one-hot matrix: is k the partition of class column cc in partitioning p, the map's word
    taken relative to the partitioning's own block (a word difference: it may wrap). -/
def hit (p : Fin 16) (k : Fin 1000) (cc : Fin 50176) : EReal :=
  if BitVec.ofNat 32 k.val = pp (ix3 p 0 cc) - BitVec.ofNat 32 p.val * 1000#32 then 1 else 0
/-- The gathered sum of class column cc for batch row r: over the partitionings, probability times one-hot entry. -/
def outRaw (r : Fin 64) (cc : Fin 50176) : EReal := ∑ p : Fin 16, ∑ k : Fin 1000, P (ix3 p r k) * hit pp p k cc
/-- The row's sum over the real classes only: 49 tiles of 1024 columns, the columns past 50000 masked. -/
def rowSum (r : Fin 64) : EReal :=
  ∑ t : Fin 49, ∑ j : Fin 1024,
    if h : t.val * 1024 + j.val < 50000 then outRaw pp P r ⟨t.val * 1024 + j.val, by omega⟩ else 0
/-- The two arrays the second kernel writes. -/
def outArr : FVec Ideal ⟨2, ![64, 50176]⟩ .f32 := fun i => outRaw pp P (i 0) (i 1)
def rowSumArr : FVec Ideal ⟨2, ![64, 1]⟩ .f32 := fun i => rowSum pp P (i 0)

end Kernel2

/-! ## Stage 3: renormalise, add the constant, take the logarithm -/

/-- The third kernel's array from the second kernel's two. -/
def finalArr (o : FVec Ideal ⟨2, ![64, 50176]⟩ .f32) (rs : FVec Ideal ⟨2, ![64, 1]⟩ .f32) : FVec Ideal ⟨2, ![64, 50176]⟩ .f32 :=
  fun i => Ideal.log (Ideal.div (o (ix2 (i 0) (i 1))) (rs (ix2 (i 0) 0)) + eps)

/-! ## The kernel's whole result from the entry point's arguments -/

section KernelWhole
variable (x : FVec Ideal ⟨2, ![64, 2048]⟩ .f32) (W : FVec Ideal ⟨2, ![16000, 2048]⟩ .f32) (b : FVec Ideal ⟨1, ![16000]⟩ .f32)
  (part : IVec ⟨2, ![16, 50000]⟩ 32)

/-- Row k of partitioning p in the flat table of 16000. -/
abbrev flat (p : Fin 16) (k : Fin 1000) : Fin 16000 := ⟨p.val * 1000 + k.val, by omega⟩
/-- The weights regrouped by partitioning. -/
def w3of : FVec Ideal ⟨3, ![16, 1000, 2048]⟩ .f32 := fun i => W (ix2 (flat (i 0) (i 1)) (i 2))
/-- The bias regrouped by partitioning. -/
def b3of : FVec Ideal ⟨3, ![16, 1, 1000]⟩ .f32 := fun i => b (ix1 (flat (i 0) (i 2)))
/-- The partition map with 176 zero columns appended, kept as [16, 1, 50176]. -/
def ppof : IVec ⟨3, ![16, 1, 50176]⟩ 32 := fun i =>
  if h : (i 2).val < 50000 then part (ix2 (i 0) ⟨(i 2).val, h⟩) else 0#32
/-- A class below 50000 as a column of the padded map. -/
abbrev padCol (cc : Fin 50000) : Fin 50176 := ⟨cc.val, by omega⟩
/-- What the kernel's entry point returns. -/
def kernelResult : FVec Ideal ⟨2, ![64, 50000]⟩ .f32 := fun i =>
  finalArr (outArr (ppof part) (probArr x (w3of W) (b3of b))) (rowSumArr (ppof part) (probArr x (w3of W) (b3of b)))
    (ix2 (i 0) (padCol (i 1)))

end KernelWhole

/-! ## The reference, operation by operation -/

section Reference
variable (x : FVec Ideal ⟨2, ![64, 2048]⟩ .f32) (W : FVec Ideal ⟨2, ![16000, 2048]⟩ .f32) (b : FVec Ideal ⟨1, ![16000]⟩ .f32)
  (part : IVec ⟨2, ![16, 50000]⟩ 32)

/-- The logit of batch row r for row n of the flat table. -/
def rlogit (r : Fin 64) (n : Fin 16000) : EReal := (∑ d : Fin 2048, x (ix2 r d) * W (ix2 n d)) + b (ix1 n)
/-- log-softmax's shift: the larger of -∞ and the row's maximum within the partitioning (itself started from -∞). -/
def rmax (r : Fin 64) (p : Fin 16) : EReal :=
  max negInf ((Finset.univ : Finset (Fin 1000)).fold max negInf (fun k => rlogit x W b r (flat p k)))
/-- The shifted logit. -/
def rshift (r : Fin 64) (p : Fin 16) (k : Fin 1000) : EReal := rlogit x W b r (flat p k) - rmax x W b r p
/-- The logarithm of the sum of the shifted exponentials (the host's sum starts from its zero word). -/
def rlse (r : Fin 64) (p : Fin 16) : EReal :=
  Ideal.log (Ideal.ofBits .f32 0x00000000#32 + ∑ k : Fin 1000, Ideal.exp (rshift x W b r p k))
/-- The partitioning a row of the flat table belongs to, and its place there. -/
abbrev blockOf (n : Fin 16000) : Fin 16 := ⟨n.val / 1000, by have := n.isLt; omega⟩
abbrev placeOf (n : Fin 16000) : Fin 1000 := ⟨n.val % 1000, Nat.mod_lt _ (by norm_num)⟩
/-- The probability of row n of the flat table: the exponential of the log-softmax. -/
def rprob (r : Fin 64) (n : Fin 16000) : EReal :=
  Ideal.exp (rshift x W b r (blockOf n) (placeOf n) - rlse x W b r (blockOf n))
/-- The flat-table row a map word selects: numpy's wrap of a negative index, then the gather's clamp into the table. -/
def ridx (p : Fin 16) (cc : Fin 50000) : Fin 16000 :=
  ⟨min (if (part (ix2 p cc)).slt 0#32 then part (ix2 p cc) + 16000#32 else part (ix2 p cc)).toInt.toNat 15999, by omega⟩
/-- The gathered sum of class cc for batch row r. -/
def rout (r : Fin 64) (cc : Fin 50000) : EReal :=
  Ideal.ofBits .f32 0x00000000#32 + ∑ p : Fin 16, rprob x W b r (ridx part p cc)
/-- The row's sum over the classes. -/
def rrow (r : Fin 64) : EReal := Ideal.ofBits .f32 0x00000000#32 + ∑ cc : Fin 50000, rout x W b part r cc
/-- What the reference returns. -/
def refResult : FVec Ideal ⟨2, ![64, 50000]⟩ .f32 := fun i =>
  Ideal.log (Ideal.div (rout x W b part (i 0) (i 1)) (rrow x W b part (i 0)) + eps)

end Reference

/-! ## The two hypotheses the bridge needs -/

/-- Every entry of an array of extended reals is a real number. -/
def AllReal {s : Shape} (v : s.Idx → EReal) : Prop := ∀ i, ∃ r : ℝ, v i = (r : EReal)
/-- Row p of the partition map holds ids of partitioning p's own block of 1000. -/
def InBlock (part : IVec ⟨2, ![16, 50000]⟩ 32) : Prop :=
  ∀ (p : Fin 16) (cc : Fin 50000), ∃ j : Fin 1000, part (ix2 p cc) = BitVec.ofNat 32 (p.val * 1000 + j.val)

end Cert.Spec

end
-- ==== Proof.Region0.lean ====
/-
  The first kernel's result array: at grid point p it writes block p of the [16, 64, 1000] array, the softmax over the
  1000 partitions of partitioning p of the logits of the 64 batch rows.
-/
import proofs.«413212_j33294586478786_1_alg».proof.Proof.Gen.KernelIdeal.Frame
import proofs.«413212_j33294586478786_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

/-! ## The product of the batch rows with the partitioning's weights, at an entry -/

theorem lhs_axis0 (i : S64x1000.Idx) (q : dot_S64x2048_S1000x2048_S64x1000_1_1_0_0_n_n.contr.Idx) :
    (dot_S64x2048_S1000x2048_S64x1000_1_1_0_0_n_n.lhsIdx i q 0).val = (i 0).val := by
  unfold DotDims.lhsIdx
  rw [dif_neg (show ¬(0 : Fin S64x2048.rank) ∈ dot_S64x2048_S1000x2048_S64x1000_1_1_0_0_n_n.lhsBatch by decide), dif_pos (show (0 : Fin S64x2048.rank) ∈ dot_S64x2048_S1000x2048_S64x1000_1_1_0_0_n_n.lhsNonContracting by decide)]
  rfl
theorem lhs_axis1 (i : S64x1000.Idx) (q : dot_S64x2048_S1000x2048_S64x1000_1_1_0_0_n_n.contr.Idx) :
    (dot_S64x2048_S1000x2048_S64x1000_1_1_0_0_n_n.lhsIdx i q 1).val = (q ⟨0, by decide⟩).val :=
  dot_S64x2048_S1000x2048_S64x1000_1_1_0_0_n_n.lhsIdx_val_of_single rfl i q
theorem rhs_axis0 (i : S64x1000.Idx) (q : dot_S64x2048_S1000x2048_S64x1000_1_1_0_0_n_n.contr.Idx) :
    (dot_S64x2048_S1000x2048_S64x1000_1_1_0_0_n_n.rhsIdx i q 0).val = (i 1).val := by
  unfold DotDims.rhsIdx
  rw [dif_neg (show ¬(0 : Fin S1000x2048.rank) ∈ dot_S64x2048_S1000x2048_S64x1000_1_1_0_0_n_n.rhsBatch by decide), dif_pos (show (0 : Fin S1000x2048.rank) ∈ dot_S64x2048_S1000x2048_S64x1000_1_1_0_0_n_n.rhsNonContracting by decide)]
  rfl
theorem rhs_axis1 (i : S64x1000.Idx) (q : dot_S64x2048_S1000x2048_S64x1000_1_1_0_0_n_n.contr.Idx) :
    (dot_S64x2048_S1000x2048_S64x1000_1_1_0_0_n_n.rhsIdx i q 1).val = (q ⟨0, by decide⟩).val :=
  dot_S64x2048_S1000x2048_S64x1000_1_1_0_0_n_n.rhsIdx_val_of_single rfl i q

/-- The product into the zero tile, at (r, k): the sum over the 2048 features of row r of the left operand times
    row k of the right one (both operands contract their second axis). -/
theorem product_apply (a : FVec Ideal S64x2048 .bf16) (b : FVec Ideal S1000x2048 .bf16) (r : Fin 64) (k : Fin 1000) :
    matmul dot_S64x2048_S1000x2048_S64x1000_1_1_0_0_n_n none a b (constant (F := Ideal) S64x1000 .f32 0x00000000#32) (ix2 r k)
      = ∑ d : Fin 2048, a (ix2 r d) * b (ix2 k d) := by
  simp only [matmul]
  rw [Ideal.matmul_constant_zero_apply, ← Equiv.sum_comp (contrEquiv1 dot_S64x2048_S1000x2048_S64x1000_1_1_0_0_n_n 2048 rfl rfl).symm]
  refine Finset.sum_congr rfl fun d _ => ?_
  have hd := contrEquiv1_symm_val dot_S64x2048_S1000x2048_S64x1000_1_1_0_0_n_n 2048 rfl rfl d
  have el : dot_S64x2048_S1000x2048_S64x1000_1_1_0_0_n_n.lhsIdx (ix2 r k) ((contrEquiv1 dot_S64x2048_S1000x2048_S64x1000_1_1_0_0_n_n 2048 rfl rfl).symm d) = ix2 r d := funext fun a => Fin.ext (by
    match a with
    | ⟨0, _⟩ => exact lhs_axis0 _ _
    | ⟨1, _⟩ => exact (lhs_axis1 _ _).trans hd)
  have er : dot_S64x2048_S1000x2048_S64x1000_1_1_0_0_n_n.rhsIdx (ix2 r k) ((contrEquiv1 dot_S64x2048_S1000x2048_S64x1000_1_1_0_0_n_n 2048 rfl rfl).symm d) = ix2 k d := funext fun a => Fin.ext (by
    match a with
    | ⟨0, _⟩ => exact rhs_axis0 _ _
    | ⟨1, _⟩ => exact (rhs_axis1 _ _).trans hd)
  rw [el, er]

/-! ## Layout steps between a row statistic and the tile -/

/-- A length-64 vector viewed as a [64, 1] column reads, at (r, u), the vector at r. -/
theorem column_cast_apply (x : FVec Ideal S64 .f32) (r : Fin 64) (u : Fin 1) :
    shapeCast S64x1 x shapeCasts_S64_S64x1 (ix2 r u) = x (ix1 r) :=
  shapeCast_apply x shapeCasts_S64_S64x1 _ _ (by
    have hu : u.val = 0 := by omega
    rw [Shape.rowMajor_val_one, Shape.rowMajor_val_two]
    show r.val = r.val * 1 + u.val
    omega)

/-- A [64, 1] column spread over the 1000 lanes reads, at (r, k), the column at (r, 0). -/
theorem column_spread_apply (x : FVec Ideal S64x1 .f32) (r : Fin 64) (k : Fin 1000) :
    broadcastTo S64x1000 x broadcasts_S64x1_S64x1000 (ix2 r k) = x (ix2 r (0 : Fin 1)) := by
  refine broadcastTo_apply x broadcasts_S64x1_S64x1000 (ix2 r k) (ix2 r (0 : Fin 1)) fun ax => ?_
  match ax with
  | ⟨0, _⟩ =>
    show r.val = if (64 : Nat) = 1 then 0 else r.val
    rw [if_neg (by decide)]
  | ⟨1, _⟩ => rfl

/-- The tile index over row r with lane k put back on the reduced axis. -/
theorem lift_row (r : Fin 64) (k : Fin 1000) : reduces_S64x1000_S64.lift (ix1 r) k = ix2 r k :=
  funext fun a => Fin.ext (by match a with | ⟨0, _⟩ => rfl | ⟨1, _⟩ => rfl)

/-- The row maximum of a [64, 1000] tile, at row r: the fold of max from the starting word over the 1000 lanes. -/
theorem rowMax_apply (z : FVec Ideal S64x1000 .f32) (hφ : FKind.Formats .f32)
    (hacc : (0xFF800000#32 : BitVec (FTy.bits .f32)) = FKind.maximumf.neutral .f32 hφ) (r : Fin 64) :
    multiReduction .maximumf [1] S64 z 0xFF800000#32 reduces_S64x1000_S64 hφ hacc (ix1 r)
      = (Finset.univ : Finset (Fin 1000)).fold max (Ideal.ofBits .f32 0xFF800000#32) (fun k => z (ix2 r k)) := by
  refine (Ideal.multiReduction_maximumf_single z _ reduces_S64x1000_S64 hφ hacc (ix1 r)).trans ?_
  exact congrArg (fun f => (Finset.univ : Finset (Fin 1000)).fold max (Ideal.ofBits .f32 0xFF800000#32) f)
    (funext fun k => congrArg z (lift_row r k))

/-- The row sum of a [64, 1000] tile, at row r: the sum over the 1000 lanes. -/
theorem rowSum_apply (z : FVec Ideal S64x1000 .f32) (hφ : FKind.Formats .f32)
    (hacc : (0x00000000#32 : BitVec (FTy.bits .f32)) = FKind.add.neutral .f32 hφ) (r : Fin 64) :
    multiReduction .add [1] S64 z 0x00000000#32 reduces_S64x1000_S64 hφ hacc (ix1 r) = ∑ k : Fin 1000, z (ix2 r k) := by
  refine (Ideal.multiReduction_add_single z _ reduces_S64x1000_S64 hφ hacc (ix1 r)).trans ?_
  exact Finset.sum_congr rfl fun k _ => congrArg z (lift_row r k)

/-! ## The first kernel's stored tile at an entry -/

/-- The logits tile of a grid point from its three blocks: the batch rows times the partitioning's weights, plus its
    bias row on every batch row. -/
def logitsTile (v0 : Vec Ideal S64x2048 .f32) (v2 : Vec Ideal S1x1000x2048 .f32) (v6 : Vec Ideal S1x1x1000 .f32) :
    FVec Ideal S64x1000 .f32 :=
  addf (matmul dot_S64x2048_S1000x2048_S64x1000_1_1_0_0_n_n none (truncf .bf16 v0 bitsLt_bf16_f32)
      (truncf .bf16 (shapeCast S1000x2048 v2 shapeCasts_S1x1000x2048_S1000x2048) bitsLt_bf16_f32)
      (constant S64x1000 .f32 0x00000000#32))
    (broadcastTo S64x1000 (shapeCast S1x1000 v6 shapeCasts_S1x1x1000_S1x1000) broadcasts_S1x1000_S64x1000)

/-- The exponentials of a tile shifted by its row maxima. -/
def shiftedExp (z : FVec Ideal S64x1000 .f32) : FVec Ideal S64x1000 .f32 :=
  exp (subf z (broadcastTo S64x1000 (shapeCast S64x1
    (multiReduction .maximumf [1] S64 z 0xFF800000#32 reduces_S64x1000_S64 (.inl rfl) rfl) shapeCasts_S64_S64x1)
    broadcasts_S64x1_S64x1000))

/-- A tile divided by its row sums, as the [1, 64, 1000] block the kernel stores. -/
def rowNormalised (e : FVec Ideal S64x1000 .f32) : FVec Ideal S1x64x1000 .f32 :=
  shapeCast S1x64x1000 (divf e (broadcastTo S64x1000 (shapeCast S64x1
    (multiReduction .add [1] S64 e 0x00000000#32 reduces_S64x1000_S64 (.inl rfl) rfl) shapeCasts_S64_S64x1)
    broadcasts_S64x1_S64x1000)) shapeCasts_S64x1000_S1x64x1000

/-- The stored value is these three steps in turn. -/
theorem pay_steps (v0 : Vec Ideal S64x2048 .f32) (v2 : Vec Ideal S1x1000x2048 .f32) (v6 : Vec Ideal S1x1x1000 .f32) :
    k0_pay1 v0 v2 v6 = rowNormalised (shiftedExp (logitsTile v0 v2 v6)) := rfl

theorem logitsTile_apply (v0 : Vec Ideal S64x2048 .f32) (v2 : Vec Ideal S1x1000x2048 .f32) (v6 : Vec Ideal S1x1x1000 .f32)
    (r : Fin 64) (k : Fin 1000) :
    logitsTile v0 v2 v6 (ix2 r k)
      = (∑ d : Fin 2048, v0 (ix2 r d) * v2 (ix3 (0 : Fin 1) k d)) + v6 (ix3 (0 : Fin 1) (0 : Fin 1) k) := by
  unfold logitsTile
  rw [addf_apply, product_apply, broadcastTo_1b_ab_apply, shapeCast_1ab_ab_apply]
  refine congrArg (· + _) (Finset.sum_congr rfl fun d _ => ?_)
  rw [truncf_apply, truncf_apply, shapeCast_1ab_ab_apply]

theorem shiftedExp_apply (z : FVec Ideal S64x1000 .f32) (r : Fin 64) (k : Fin 1000) :
    shiftedExp z (ix2 r k)
      = Ideal.exp (z (ix2 r k)
          - (Finset.univ : Finset (Fin 1000)).fold max (Ideal.ofBits .f32 0xFF800000#32) (fun k' => z (ix2 r k'))) := by
  unfold shiftedExp
  show Ideal.exp (z (ix2 r k) - broadcastTo S64x1000 _ broadcasts_S64x1_S64x1000 (ix2 r k)) = _
  rw [column_spread_apply, column_cast_apply]
  exact congrArg (fun m => Ideal.exp (z (ix2 r k) - m)) (rowMax_apply z _ _ r)

theorem rowNormalised_apply (e : FVec Ideal S64x1000 .f32) (r : Fin 64) (k : Fin 1000) :
    rowNormalised e (ix3 (0 : Fin 1) r k) = Ideal.div (e (ix2 r k)) (∑ k' : Fin 1000, e (ix2 r k')) := by
  unfold rowNormalised
  rw [shapeCast_ab_1ab_apply, divf_apply, column_spread_apply, column_cast_apply]
  exact congrArg (Ideal.div (e (ix2 r k))) (rowSum_apply e _ _ r)

/-- THE STORED TILE IS THE SOFTMAX: with the three blocks read as the batch rows, partitioning p's weights and
    partitioning p's bias row, the entry (r, k) of the stored block is the probability of partition k. -/
theorem pay_eq_prob (x : FVec Ideal ⟨2, ![64, 2048]⟩ .f32) (w3 : FVec Ideal ⟨3, ![16, 1000, 2048]⟩ .f32)
    (b3 : FVec Ideal ⟨3, ![16, 1, 1000]⟩ .f32) (p : Fin 16)
    (v0 : Vec Ideal S64x2048 .f32) (v2 : Vec Ideal S1x1000x2048 .f32) (v6 : Vec Ideal S1x1x1000 .f32)
    (h0 : ∀ (r : Fin 64) (d : Fin 2048), v0 (ix2 r d) = x (ix2 r d))
    (h2 : ∀ (k : Fin 1000) (d : Fin 2048), v2 (ix3 (0 : Fin 1) k d) = w3 (ix3 p k d))
    (h6 : ∀ k : Fin 1000, v6 (ix3 (0 : Fin 1) (0 : Fin 1) k) = b3 (ix3 p (0 : Fin 1) k))
    (r : Fin 64) (k : Fin 1000) :
    k0_pay1 v0 v2 v6 (ix3 (0 : Fin 1) r k) = Cert.Spec.prob x w3 b3 p r k := by
  have hL : ∀ k' : Fin 1000, logitsTile v0 v2 v6 (ix2 r k') = Cert.Spec.logit x w3 b3 p r k' := fun k' => by
    rw [logitsTile_apply, h6]
    unfold Cert.Spec.logit
    exact congrArg (· + _) (Finset.sum_congr rfl fun d _ => by rw [h0, h2])
  have hE : ∀ k' : Fin 1000, shiftedExp (logitsTile v0 v2 v6) (ix2 r k') = Cert.Spec.expo x w3 b3 p r k' := fun k' => by
    rw [shiftedExp_apply]
    unfold Cert.Spec.expo Cert.Spec.rowMax
    simp only [hL]
  rw [pay_steps, rowNormalised_apply]
  unfold Cert.Spec.prob Cert.Spec.denom
  simp only [hE]

/-! ## From the blocks to the array -/

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices at grid point t: the batch rows are one whole block; the weights, the bias and the result are
    cut along the partitioning axis only, and point t takes block t of each. -/
theorem index_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem point_lt (t : Fin cfg0.N) : t.val < 16 := lt_of_lt_of_eq t.isLt N_0

/-- The first window's block at any point is the whole array of batch rows. -/
theorem rows_block (c : Dev nD) (t : Fin cfg0.N) (r : Fin 64) (d : Fin 2048) :
    (iblk0 (F := Ideal) V c 0 t : Vec Ideal S64x2048 .f32) (ix2 r d) = (V c main_arg0 : Vec Ideal S64x2048 .f32) (ix2 r d) := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 64 + 1 * r.val = r.val; omega
  | ⟨1, _⟩ => show win0_0.index t (1 : Fin 2) * 2048 + 1 * d.val = d.val; omega

/-- The second window's block at point t is partitioning t's weights. -/
theorem weights_block (c : Dev nD) (t : Fin cfg0.N) (k : Fin 1000) (d : Fin 2048) :
    (iblk0 (F := Ideal) V c 1 t : Vec Ideal S1x1000x2048 .f32) (ix3 (0 : Fin 1) k d)
      = (V c main_v0 : Vec Ideal S16x1000x2048 .f32) (ix3 (⟨t.val, point_lt t⟩ : Fin 16) k d) := by
  obtain ⟨-, -, e0, e1, e2, -⟩ := index_facts t
  unfold iblk0
  rw [View.read_apply]
  show V c main_v0 _ = V c main_v0 _
  congr 1
  funext a
  apply Fin.ext
  match a with
  | ⟨0, _⟩ => show win0_1.index t (0 : Fin 3) * 1 + 1 * 0 = t.val; omega
  | ⟨1, _⟩ => show win0_1.index t (1 : Fin 3) * 1000 + 1 * k.val = k.val; omega
  | ⟨2, _⟩ => show win0_1.index t (2 : Fin 3) * 2048 + 1 * d.val = d.val; omega

/-- The third window's block at point t is partitioning t's bias row. -/
theorem bias_block (c : Dev nD) (t : Fin cfg0.N) (k : Fin 1000) :
    (iblk0 (F := Ideal) V c 2 t : Vec Ideal S1x1x1000 .f32) (ix3 (0 : Fin 1) (0 : Fin 1) k)
      = (V c main_v1 : Vec Ideal S16x1x1000 .f32) (ix3 (⟨t.val, point_lt t⟩ : Fin 16) (0 : Fin 1) k) := by
  obtain ⟨-, -, -, -, -, e0, e1, e2, -⟩ := index_facts t
  unfold iblk0
  rw [View.read_apply]
  show V c main_v1 _ = V c main_v1 _
  congr 1
  funext a
  apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 1000 + 1 * k.val = k.val; omega

/-- The stored tile of partitioning p at a block index y is the probability array at the index (p, y 1, y 2). -/
theorem tile_eq_probArr (x : FVec Ideal ⟨2, ![64, 2048]⟩ .f32) (w3 : FVec Ideal ⟨3, ![16, 1000, 2048]⟩ .f32)
    (b3 : FVec Ideal ⟨3, ![16, 1, 1000]⟩ .f32) (p : Fin 16)
    (v0 : Vec Ideal S64x2048 .f32) (v2 : Vec Ideal S1x1000x2048 .f32) (v6 : Vec Ideal S1x1x1000 .f32)
    (h0 : ∀ (r : Fin 64) (d : Fin 2048), v0 (ix2 r d) = x (ix2 r d))
    (h2 : ∀ (k : Fin 1000) (d : Fin 2048), v2 (ix3 (0 : Fin 1) k d) = w3 (ix3 p k d))
    (h6 : ∀ k : Fin 1000, v6 (ix3 (0 : Fin 1) (0 : Fin 1) k) = b3 (ix3 p (0 : Fin 1) k))
    (y : S1x64x1000.Idx) (i : S16x64x1000.Idx) (hi0 : (i 0).val = p.val) (hi1 : (i 1).val = (y 1).val)
    (hi2 : (i 2).val = (y 2).val) :
    k0_pay1 v0 v2 v6 y = Cert.Spec.probArr x w3 b3 i := by
  obtain ⟨u, r, k, rfl⟩ : ∃ (u : Fin 1) (r : Fin 64) (k : Fin 1000), y = ix3 u r k := ⟨y 0, y 1, y 2, eq_ix3 y⟩
  obtain rfl : u = 0 := Fin.ext (by omega)
  obtain ⟨p', r', k', rfl⟩ : ∃ (p' : Fin 16) (r' : Fin 64) (k' : Fin 1000), i = ix3 p' r' k' := ⟨i 0, i 1, i 2, eq_ix3 i⟩
  obtain rfl : p' = p := Fin.ext hi0
  obtain rfl : r' = r := Fin.ext hi1
  obtain rfl : k' = k := Fin.ext hi2
  exact pay_eq_prob x w3 b3 p' v0 v2 v6 h0 h2 h6 r' k'

/-- WHAT POINT t WRITES BACK is block t of the probability array of the arrays as the region finds them. -/
theorem flushed_eq (c : Dev nD) (t : Fin cfg0.N) :
    (dat0 (F := Ideal) V c).flushed 3 t
      = ((cfg0.win 3).blk t).view.read (Elt Ideal) (Cert.Spec.probArr (V c main_arg0) (V c main_v0) (V c main_v1)) := by
  show (cfg0.win 3).cut (grid0.coords t) ((dat0 (F := Ideal) V c).after 3 t) = _
  rw [after0_3]
  unfold out0_3
  rw [View.canon_unit_zero zeros3]
  simp only [View.ld_unit_zero (S := S64x2048) zeros2, View.ld_unit_zero (S := S1x1000x2048) zeros3,
    View.ld_unit_zero (S := S1x1x1000) zeros3]
  obtain ⟨-, -, -, -, -, -, -, -, e0, e1, e2⟩ := index_facts t
  funext y
  show k0_pay1 (iblk0 (F := Ideal) V c 0 t) (iblk0 (F := Ideal) V c 1 t) (iblk0 (F := Ideal) V c 2 t) y
    = Cert.Spec.probArr (V c main_arg0) (V c main_v0) (V c main_v1) (((cfg0.win 3).blk t).view.emb y)
  refine tile_eq_probArr (V c main_arg0) (V c main_v0) (V c main_v1) ⟨t.val, point_lt t⟩ _ _ _
    (rows_block V c t) (weights_block V c t) (bias_block V c t) y _ ?_ ?_ ?_
  · show win0_3.index t (0 : Fin 3) * 1 + 1 * (y 0).val = t.val
    have hy : (y 0).val < 1 := (y 0).isLt
    omega
  · show win0_3.index t (1 : Fin 3) * 64 + 1 * (y 1).val = (y 1).val
    omega
  · show win0_3.index t (2 : Fin 3) * 1000 + 1 * (y 2).val = (y 2).val
    omega

/-- Every index (p, r, k) of the result array lies in the block point p writes back. -/
theorem covered (i : S16x64x1000.Idx) :
    ∃ t : Fin cfg0.N, (cfg0.win 3).flush t = true ∧ i ∈ ((cfg0.win 3).blk t).view.set := by
  have h0 : (i 0).val < 16 := (i 0).isLt
  have h1 : (i 1).val < 64 := (i 1).isLt
  have h2 : (i 2).val < 1000 := (i 2).isLt
  obtain ⟨t, ht⟩ : ∃ t : Fin cfg0.N, t.val = (i 0).val := ⟨⟨(i 0).val, lt_of_lt_of_eq h0 N_0.symm⟩, rfl⟩
  refine ⟨t, flush0_3 t, ?_⟩
  obtain ⟨-, -, -, -, -, -, -, -, e0, e1, e2⟩ := index_facts t
  show i ∈ ((View.whole main_v2).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 64 ≤ (i 1).val ∧ (i 1).val < win0_3.index t (1 : Fin 3) * 64 + 64
    omega
  | ⟨2, _⟩ =>
    show win0_3.index t (2 : Fin 3) * 1000 ≤ (i 2).val ∧ (i 2).val < win0_3.index t (2 : Fin 3) * 1000 + 1000
    omega

theorem region0 (c : Dev nD) :
    (dat0 (F := Ideal) V c).arrAt 3 cfg0.N = Cert.Spec.probArr (V c main_arg0) (V c main_v0) (V c main_v1) :=
  (dat0 (F := Ideal) V c).arrAt_eq_of_cover 3 (Cert.Spec.probArr (V c main_arg0) (V c main_v0) (V c main_v1))
    (fun t _ => flushed_eq V c t) covered

end Cert.KernelIdeal.R0

end
-- ==== Proof.R1Pay.lean ====
/-
  The second kernel's arithmetic at one element.  The loop over the 16 partitionings carries a [64, 1024] tile:
  it starts at zero and trip p adds the product of partitioning p's probabilities [64, 1000] with the one-hot matrix
  [1000, 1024] of the tile's columns.  After the loop the tile's masked lane sum is added to the running row sums.
-/
import proofs.«413212_j33294586478786_1_alg».proof.Proof.Gen.KernelIdeal.Skeleton
import proofs.«413212_j33294586478786_1_alg».proof.Proof.Spec
import Idealize.ShloMosaic.Lib.Pipeline.Value
import Idealize.ShloMosaic.Lib.ValueLayout
import Idealize.ShloMosaic.PureOps.Ideal.Laws
import Idealize.ShloMosaic.Lib.StableHlo.Predicate

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

theorem trips_eq : k1_t1_loop.trips = 16 := by decide

/-- Row k of the tile of the partition map: what trip k loads of the first operand's block. -/
def rowOf (x0 : Vec Ideal S16x1x1024 .i32) (k : Fin k1_t1_loop.trips) : Vec Ideal S1x1x1024 .i32 :=
  fun j => x0 (ix3 ⟨k.val, lt_of_lt_of_eq k.isLt trips_eq⟩ 0 (j 2))
/-- Slab k of the probabilities: what trip k loads of the second operand's block. -/
def slabOf (x1 : Vec Ideal S16x64x1000 .f32) (k : Fin k1_t1_loop.trips) : Vec Ideal S1x64x1000 .f32 :=
  fun j => x1 (ix3 ⟨k.val, lt_of_lt_of_eq k.isLt trips_eq⟩ (j 1) (j 2))

/-- The carried tile before trip n: zero, then one trip's payload after another. -/
def accUpTo (x0 : Vec Ideal S16x1x1024 .i32) (x1 : Vec Ideal S16x64x1000 .f32) : ℕ → FVec Ideal S64x1024 .f32
  | 0 => k1_pay1 (F := Ideal)
  | n + 1 => if h : n < k1_t1_loop.trips then k1_pay2 (F := Ideal) ⟨n, h⟩ (accUpTo x0 x1 n) (rowOf x0 ⟨n, h⟩) (slabOf x1 ⟨n, h⟩)
             else accUpTo x0 x1 n
/-- The tile the loop leaves. -/
def accTile (x0 : Vec Ideal S16x1x1024 .i32) (x1 : Vec Ideal S16x64x1000 .f32) : FVec Ideal S64x1024 .f32 :=
  accUpTo x0 x1 k1_t1_loop.trips

/-! ## The product's operand indices -/

theorem mm_lhs_0 (i : S64x1024.Idx) (q : dot_S64x1000_S1000x1024_S64x1024_1_0_0_1_n_n.contr.Idx) :
    (dot_S64x1000_S1000x1024_S64x1024_1_0_0_1_n_n.lhsIdx i q 0).val = (i 0).val := by
  unfold DotDims.lhsIdx
  rw [dif_neg (show ¬(0 : Fin S64x1000.rank) ∈ dot_S64x1000_S1000x1024_S64x1024_1_0_0_1_n_n.lhsBatch by decide), dif_pos (show (0 : Fin S64x1000.rank) ∈ dot_S64x1000_S1000x1024_S64x1024_1_0_0_1_n_n.lhsNonContracting by decide)]
  rfl
theorem mm_lhs_1 (i : S64x1024.Idx) (q : dot_S64x1000_S1000x1024_S64x1024_1_0_0_1_n_n.contr.Idx) :
    (dot_S64x1000_S1000x1024_S64x1024_1_0_0_1_n_n.lhsIdx i q 1).val = (q ⟨0, by decide⟩).val :=
  dot_S64x1000_S1000x1024_S64x1024_1_0_0_1_n_n.lhsIdx_val_of_single rfl i q
theorem mm_rhs_0 (i : S64x1024.Idx) (q : dot_S64x1000_S1000x1024_S64x1024_1_0_0_1_n_n.contr.Idx) :
    (dot_S64x1000_S1000x1024_S64x1024_1_0_0_1_n_n.rhsIdx i q 0).val = (q ⟨0, by decide⟩).val :=
  dot_S64x1000_S1000x1024_S64x1024_1_0_0_1_n_n.rhsIdx_val_of_single rfl i q
theorem mm_rhs_1 (i : S64x1024.Idx) (q : dot_S64x1000_S1000x1024_S64x1024_1_0_0_1_n_n.contr.Idx) :
    (dot_S64x1000_S1000x1024_S64x1024_1_0_0_1_n_n.rhsIdx i q 1).val = (i 1).val := by
  unfold DotDims.rhsIdx
  rw [dif_neg (show ¬(1 : Fin S1000x1024.rank) ∈ dot_S64x1000_S1000x1024_S64x1024_1_0_0_1_n_n.rhsBatch by decide), dif_pos (show (1 : Fin S1000x1024.rank) ∈ dot_S64x1000_S1000x1024_S64x1024_1_0_0_1_n_n.rhsNonContracting by decide)]
  rfl

/-- A [64, 1000] by [1000, 1024] product into the zero tile, at (r, j): the sum over the 1000 shared coordinates. -/
theorem matmul_at {φ₁ φ₂ : FTy} (A : FVec Ideal S64x1000 φ₁) (B : FVec Ideal S1000x1024 φ₂) (r : Fin 64) (j : Fin 1024) :
    matmul dot_S64x1000_S1000x1024_S64x1024_1_0_0_1_n_n none A B (constant (F := Ideal) S64x1024 .f32 0x00000000#32) (ix2 r j)
      = ∑ k : Fin 1000, A (ix2 r k) * B (ix2 k j) := by
  simp only [matmul]
  rw [Ideal.matmul_constant_zero_apply, ← Equiv.sum_comp (contrEquiv1 dot_S64x1000_S1000x1024_S64x1024_1_0_0_1_n_n 1000 rfl rfl).symm]
  refine Finset.sum_congr rfl fun k _ => ?_
  have hk := contrEquiv1_symm_val dot_S64x1000_S1000x1024_S64x1024_1_0_0_1_n_n 1000 rfl rfl k
  have el : dot_S64x1000_S1000x1024_S64x1024_1_0_0_1_n_n.lhsIdx (ix2 r j) ((contrEquiv1 dot_S64x1000_S1000x1024_S64x1024_1_0_0_1_n_n 1000 rfl rfl).symm k) = ix2 r k := funext fun a => Fin.ext (by
    match a with
    | ⟨0, _⟩ => exact mm_lhs_0 _ _
    | ⟨1, _⟩ => exact (mm_lhs_1 _ _).trans hk)
  have er : dot_S64x1000_S1000x1024_S64x1024_1_0_0_1_n_n.rhsIdx (ix2 r j) ((contrEquiv1 dot_S64x1000_S1000x1024_S64x1024_1_0_0_1_n_n 1000 rfl rfl).symm k) = ix2 k j := funext fun a => Fin.ext (by
    match a with
    | ⟨0, _⟩ => exact (mm_rhs_0 _ _).trans hk
    | ⟨1, _⟩ => exact mm_rhs_1 _ _)
  rw [el, er]

/-! ## Layout steps -/

/-- A [1, 1, n] block viewed as [n] reads (0, 0, j) at j. -/
theorem shapeCast_11a_a_apply {α : Type} {a : ℕ} (x : (⟨3, ![1, 1, a]⟩ : Shape).Idx → α)
    (h : (⟨3, ![1, 1, a]⟩ : Shape).ShapeCasts ⟨1, ![a]⟩) (j : Fin a) :
    shapeCast ⟨1, ![a]⟩ x h (ix1 j) = x (ix3 (0 : Fin 1) (0 : Fin 1) j) :=
  shapeCast_apply x h _ _ (by
    rw [Shape.rowMajor_val_three, Shape.rowMajor_val_one]
    show (0 * 1 + 0) * a + j.val = j.val
    omega)

/-- A [n] vector viewed as a column [n, 1] reads r at (r, 0). -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-! ## One trip of the loop at an index -/

/-- The loop counter at trip k is the word of k. -/
theorem iv_eq (k : Fin k1_t1_loop.trips) : Scf.iv 0#32 1#32 k = BitVec.ofNat 32 k.val := by
  unfold Scf.iv
  simp

/-- A compared pair of words, widened and read as a number: one where they agree, zero elsewhere. -/
theorem onehot_entry (a b : BitVec 32) :
    FloatOps.sitofp (F := Ideal) .f32 ((IntOp.cmpi .eq a b).setWidth 32) = if a = b then (1 : EReal) else 0 := by
  by_cases h : a = b
  · rw [StableHlo.Predicate.cmpi_eq_iff.mpr h, if_pos h]
    show ((((1#1 : BitVec 1).setWidth 32).toInt : ℝ) : EReal) = 1
    have : ((1#1 : BitVec 1).setWidth 32).toInt = 1 := by decide
    rw [this]; simp
  · rw [eq_zero_of_ne_one (fun h1 => h (StableHlo.Predicate.cmpi_eq_iff.mp h1)), if_neg h]
    show ((((0#1 : BitVec 1).setWidth 32).toInt : ℝ) : EReal) = 0
    have : ((0#1 : BitVec 1).setWidth 32).toInt = 0 := by decide
    rw [this]; simp

/-- The row of the partition map a trip compares against, relative to the partitioning's block, at column j. -/
theorem rel_at (k : Fin k1_t1_loop.trips) (v23 : Vec Ideal S1x1x1024 .i32) (kk : Fin 1000) (j : Fin 1024) :
    broadcastTo S1000x1024 (shapeCast S1x1024 (subi (shapeCast S1024 v23 shapeCasts_S1x1x1024_S1024)
        (broadcast S1024 (Scalar.muli (Scf.iv 0#32 1#32 k) 1000#32))) shapeCasts_S1024_S1x1024)
      broadcasts_S1x1024_S1000x1024 (ix2 kk j)
      = v23 (ix3 0 0 j) - BitVec.ofNat 32 k.val * 1000#32 := by
  refine (broadcastTo_1b_ab_apply _ _ kk j).trans ?_
  refine (shapeCast_a_1a_apply _ _ 0 j).trans ?_
  show shapeCast S1024 v23 shapeCasts_S1x1x1024_S1024 (ix1 j) - Scf.iv 0#32 1#32 k * 1000#32 = _
  rw [iv_eq]
  exact congrArg (· - BitVec.ofNat 32 k.val * 1000#32) (shapeCast_11a_a_apply v23 _ j)

/-- One trip: the carried tile plus the product of the trip's slab with its one-hot matrix. -/
theorem pay2_apply (k : Fin k1_t1_loop.trips) (acc : FVec Ideal S64x1024 .f32) (v23 : Vec Ideal S1x1x1024 .i32)
    (v35 : Vec Ideal S1x64x1000 .f32) (r : Fin 64) (j : Fin 1024) :
    k1_pay2 (F := Ideal) k acc v23 v35 (ix2 r j)
      = acc (ix2 r j) + ∑ kk : Fin 1000, v35 (ix3 0 r kk)
          * (if BitVec.ofNat 32 kk.val = v23 (ix3 0 0 j) - BitVec.ofNat 32 k.val * 1000#32 then (1 : EReal) else 0) := by
  unfold k1_pay2
  refine (addf_apply _ _ _).trans ?_
  refine congrArg (acc (ix2 r j) + ·) ?_
  refine (matmul_at _ _ r j).trans ?_
  refine Finset.sum_congr rfl fun kk _ => ?_
  refine congrArg₂ (· * ·) ?_ ?_
  · exact shapeCast_1ab_ab_apply v35 _ r kk
  · refine (onehot_entry _ _).trans ?_
    rw [rel_at k v23 kk j, iota_single_apply]

/-! ## The loop's tile -/

/-- The tile starts at zero. -/
theorem pay1_apply (i : S64x1024.Idx) : k1_pay1 (F := Ideal) i = 0 := by
  unfold k1_pay1
  exact Ideal.ofBits_zero_f32

/-- Partitioning p's contribution to the tile at (r, j); zero past the last partitioning. -/
def contrib (x0 : Vec Ideal S16x1x1024 .i32) (x1 : Vec Ideal S16x64x1000 .f32) (r : Fin 64) (j : Fin 1024) (p : ℕ) : EReal :=
  if h : p < 16 then
    ∑ k : Fin 1000, x1 (ix3 ⟨p, h⟩ r k)
      * (if BitVec.ofNat 32 k.val = x0 (ix3 ⟨p, h⟩ 0 j) - BitVec.ofNat 32 p * 1000#32 then (1 : EReal) else 0)
  else 0

/-- Before trip n the tile holds the contributions of the partitionings below n. -/
theorem accUpTo_apply (x0 : Vec Ideal S16x1x1024 .i32) (x1 : Vec Ideal S16x64x1000 .f32) (r : Fin 64) (j : Fin 1024) :
    ∀ n : ℕ, n ≤ 16 → accUpTo x0 x1 n (ix2 r j) = ∑ p ∈ Finset.range n, contrib x0 x1 r j p
  | 0, _ => by
    show k1_pay1 (F := Ideal) (ix2 r j) = _
    rw [Finset.range_zero, Finset.sum_empty]
    exact pay1_apply _
  | n + 1, hn => by
    have h16 : n < 16 := by omega
    have hlt : n < k1_t1_loop.trips := lt_of_lt_of_eq h16 trips_eq.symm
    show (if h : n < k1_t1_loop.trips then
        k1_pay2 (F := Ideal) ⟨n, h⟩ (accUpTo x0 x1 n) (rowOf x0 ⟨n, h⟩) (slabOf x1 ⟨n, h⟩)
      else accUpTo x0 x1 n) (ix2 r j) = _
    rw [dif_pos hlt, pay2_apply, accUpTo_apply x0 x1 r j n (by omega), Finset.sum_range_succ]
    refine congrArg (_ + ·) ?_
    unfold contrib
    rw [dif_pos h16]
    rfl

/-! ## The masked lane sum -/

/-- The lane sum of a [64, 1024] tile at row r. -/
theorem laneSum_at (v : FVec Ideal S64x1024 .f32) (hacc : (0x00000000#32 : BitVec 32) = 0x00000000#32) (r : Fin 64) :
    multiReduction (F := Ideal) .add [1] S64 v 0x00000000#32 reduces_S64x1024_S64 (.inl rfl) hacc (ix1 r)
      = ∑ j : Fin 1024, v (ix2 r j) := by
  refine (Ideal.multiReduction_add_single v 0x00000000#32 reduces_S64x1024_S64 (.inl rfl) hacc (ix1 r)).trans ?_
  refine Finset.sum_congr rfl fun j _ => congrArg v ?_
  funext c
  apply Fin.ext
  match c with
  | ⟨0, _⟩ => rfl
  | ⟨1, _⟩ => rfl

/-- Column j of tile t is a real class exactly when the signed comparison of its word with 50000 says so. -/
theorem mask_bit (t : ℕ) (ht : t < 49) (j : Fin 1024) :
    IntOp.cmpi .slt (IntOp.addi (BitVec.ofNat 32 j.val) (Scalar.muli (BitVec.ofNat 32 t) 1024#32)) 50000#32 = 1#1
      ↔ t * 1024 + j.val < 50000 := by
  have e : IntOp.addi (BitVec.ofNat 32 j.val) (Scalar.muli (BitVec.ofNat 32 t) 1024#32) = BitVec.ofNat 32 (t * 1024 + j.val) := by
    show BitVec.ofNat 32 j.val + BitVec.ofNat 32 t * 1024#32 = _
    apply BitVec.eq_of_toNat_eq
    simp only [BitVec.toNat_add, BitVec.toNat_mul, BitVec.toNat_ofNat]
    have := j.isLt
    omega
  rw [e]
  unfold IntOp.cmpi
  exact StableHlo.Predicate.slt_ofNat_iff _ _ (by have := j.isLt; omega) (by omega)

/-! ## The tile, the zero column and the accumulating store, each at an index -/

/-- The tile at (r, j): over the partitionings, over the partitions, probability times one-hot entry. -/
theorem accTile_apply (x0 : Vec Ideal S16x1x1024 .i32) (x1 : Vec Ideal S16x64x1000 .f32) (r : Fin 64) (j : Fin 1024) :
    accTile x0 x1 (ix2 r j)
      = ∑ p : Fin 16, ∑ k : Fin 1000, x1 (ix3 p r k)
          * (if BitVec.ofNat 32 k.val = x0 (ix3 p 0 j) - BitVec.ofNat 32 p.val * 1000#32 then (1 : EReal) else 0) := by
  show accUpTo x0 x1 k1_t1_loop.trips (ix2 r j) = _
  rw [accUpTo_apply x0 x1 r j k1_t1_loop.trips (le_of_eq trips_eq), trips_eq, ← Fin.sum_univ_eq_sum_range]
  refine Finset.sum_congr rfl fun p _ => ?_
  unfold contrib
  rw [dif_pos p.isLt]

/-- The zero column the first point stores before it accumulates. -/
theorem pay3_apply (r : Fin 64) : k1_pay3 (F := Ideal) (ix2 r 0) = 0 := by
  unfold k1_pay3
  exact Ideal.ofBits_zero_f32

/-- The accumulating store at row r: what the column held plus the tile's lane sum over the columns that are real
    classes (tile t's column j is class t * 1024 + j). -/
theorem pay4_apply (i : grid1.Coords) (hi : (i 0).val < 49) (a : FVec Ideal S64x1024 .f32) (xo : Vec Ideal S64x1 .f32) (r : Fin 64) :
    k1_pay4 (F := Ideal) i a xo (ix2 r 0)
      = xo (ix2 r 0) + ∑ j : Fin 1024, if (i 0).val * 1024 + j.val < 50000 then a (ix2 r j) else 0 := by
  unfold k1_pay4
  refine (addf_apply _ _ _).trans ?_
  refine congrArg₂ (· + ·) ?_ ?_
  · exact congrFun (shapeCast_self xo _) (ix2 r 0)
  · refine (shapeCast_a_a1_apply _ _ r 0).trans ?_
    refine (laneSum_at _ _ r).trans ?_
    refine Finset.sum_congr rfl fun j _ => ?_
    refine (select_apply _ _ _ _).trans ?_
    have e0 : iota .tc S64x1024 32 [1] iota_S64x1024_d1_w32 (ix2 r j) = BitVec.ofNat 32 j.val :=
      iota_single_apply .tc S64x1024 32 1 _ (ix2 r j)
    show Scalar.select (IntOp.cmpi .slt (IntOp.addi (iota .tc S64x1024 32 [1] iota_S64x1024_d1_w32 (ix2 r j))
        (Scalar.muli (BitVec.ofNat 32 (i 0).val) 1024#32)) 50000#32) (a (ix2 r j)) (Ideal.ofBits .f32 0x00000000#32) = _
    rw [e0]
    by_cases h : (i 0).val * 1024 + j.val < 50000
    · rw [(mask_bit _ hi j).mpr h, if_pos h]
      exact select_one _ _
    · rw [eq_zero_of_ne_one (fun h1 => h ((mask_bit _ hi j).mp h1)), if_neg h, select_zero]
      exact Ideal.ofBits_zero_f32

end Cert.KernelIdeal.R1

end
-- ==== Proof.R1Cases.lean ====
/-
  What the second kernel's body leaves in its two output buffers, case by case: the tile buffer always holds the
  loop's tile; the row-sum column holds the accumulating store's value, over a zero column at the first grid point and
  over what the point before left at every later one.
-/
import proofs.«413212_j33294586478786_1_alg».proof.Proof.Gen.KernelIdeal.Frame
import proofs.«413212_j33294586478786_1_alg».proof.Proof.R1Pay

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

variable (c : Dev nD) (i : grid1.Coords) (arg1 : Memref sig .tc .vmem S16x1x1024 .i32) (harg1 : arg1.IsWhole)
  (arg2 : Memref sig .tc .vmem S16x64x1000 .f32) (harg2 : arg2.IsWhole) (arg3 : Memref sig .tc .vmem S64x1024 .f32) (harg3 : arg3.IsWhole)
  (arg4 : Memref sig .tc .vmem S64x1 .f32) (harg4 : arg4.IsWhole)
  (x0 : Vec Ideal S16x1x1024 .i32) (x1 : Vec Ideal S16x64x1000 .f32)

/-- The zero offsets of a rank-2 block, however spelt. -/
theorem off00_eq : (![0, 0] : Fin 2 → Nat) = fun _ => 0 := funext fun a => by fin_cases a <;> rfl

/-- One trip of the loop, opened once: the payload at the two loads of the trip's row and slab. -/
theorem trip_eq (c : Dev nD) (i : grid1.Coords) (arg1 : Memref sig .tc .vmem S16x1x1024 .i32) (harg1 : arg1.IsWhole)
    (arg2 : Memref sig .tc .vmem S16x64x1000 .f32) (harg2 : arg2.IsWhole) (arg3 : Memref sig .tc .vmem S64x1024 .f32) (harg3 : arg3.IsWhole)
    (arg4 : Memref sig .tc .vmem S64x1 .f32) (harg4 : arg4.IsWhole)
    (X1 : BufTy.Contents (Elt Ideal) arg1.view.ty) (X2 : BufTy.Contents (Elt Ideal) arg2.view.ty)
    (k : Fin k1_t1_loop.trips) (acc : FVec Ideal S64x1024 .f32) :
    tripR_k1_t1 (F := Ideal) Variants.none c none i arg1 harg1 arg2 harg2 arg3 harg3 arg4 harg4 X1 X2 k acc
      = k1_pay2 (F := Ideal) k acc
          (View.readAt (Elt Ideal) arg1.view (Rect.unit (s := S16x1x1024) (k1_off1 k) S1x1x1024.size (k1_off1_inb k)).toLoadRect X1)
          (View.readAt (Elt Ideal) arg2.view (Rect.unit (s := S16x64x1000) (k1_off2 k) S1x64x1000.size (k1_off2_inb k)).toLoadRect X2) := by
  unfold tripR_k1_t1 trip_k1_t1
  dsimp only

/-- The load of trip k's row of the partition map's block reads row k. -/
theorem ld_row (x0 : Vec Ideal S16x1x1024 .i32) (k : Fin k1_t1_loop.trips) :
    View.ld x0 (Rect.unit (s := S16x1x1024) (k1_off1 k) S1x1x1024.size (k1_off1_inb k)) = rowOf x0 k := by
  funext j
  show x0 _ = x0 _
  congr 1
  funext a
  apply Fin.ext
  have h0 : (j 0).val < 1 := (j 0).isLt
  have h1 : (j 1).val < 1 := (j 1).isLt
  have e0 : k1_off1 k 0 = k.val := by rw [k1_off1_eq]; rfl
  have e1 : k1_off1 k 1 = 0 := by rw [k1_off1_eq]; rfl
  have e2 : k1_off1 k 2 = 0 := by rw [k1_off1_eq]; rfl
  match a with
  | ⟨0, _⟩ => show k1_off1 k 0 + 1 * (j 0).val = k.val; omega
  | ⟨1, _⟩ => show k1_off1 k 1 + 1 * (j 1).val = 0; omega
  | ⟨2, _⟩ => show k1_off1 k 2 + 1 * (j 2).val = (j 2).val; omega

/-- The load of trip k's slab of the probabilities' block reads slab k. -/
theorem ld_slab (x1 : Vec Ideal S16x64x1000 .f32) (k : Fin k1_t1_loop.trips) :
    View.ld x1 (Rect.unit (s := S16x64x1000) (k1_off2 k) S1x64x1000.size (k1_off2_inb k)) = slabOf x1 k := by
  funext j
  show x1 _ = x1 _
  congr 1
  funext a
  apply Fin.ext
  have h0 : (j 0).val < 1 := (j 0).isLt
  have e0 : k1_off2 k 0 = k.val := by rw [k1_off2_eq]; rfl
  have e1 : k1_off2 k 1 = 0 := by rw [k1_off2_eq]; rfl
  have e2 : k1_off2 k 2 = 0 := by rw [k1_off2_eq]; rfl
  match a with
  | ⟨0, _⟩ => show k1_off2 k 0 + 1 * (j 0).val = k.val; omega
  | ⟨1, _⟩ => show k1_off2 k 1 + 1 * (j 1).val = (j 1).val; omega
  | ⟨2, _⟩ => show k1_off2 k 2 + 1 * (j 2).val = (j 2).val; omega

/-- The carried tile before trip n, on the two blocks, is the recursion on the payloads. -/
theorem st_eq : ∀ n, n ≤ k1_t1_loop.trips →
    st_k1_t1 (F := Ideal) Variants.none c none i arg1 harg1 arg2 harg2 arg3 harg3 arg4 harg4 (harg1.unread x0) (harg2.unread x1)
      (k1_pay1 (F := Ideal)) n = accUpTo x0 x1 n
  | 0, _ => rfl
  | n + 1, h => by
    have hn : n < k1_t1_loop.trips := h
    refine (st_k1_t1_succ (F := Ideal) Variants.none c none i arg1 harg1 arg2 harg2 arg3 harg3 arg4 harg4 (harg1.unread x0) (harg2.unread x1)
      (k1_pay1 (F := Ideal)) ⟨n, hn⟩).trans ?_
    refine (trip_eq c i arg1 harg1 arg2 harg2 arg3 harg3 arg4 harg4 (harg1.unread x0) (harg2.unread x1) ⟨n, hn⟩ _).trans ?_
    rw [View.readAt_eq_ld, View.readAt_eq_ld, harg1.read_unread, harg2.read_unread, ld_row, ld_slab]
    show k1_pay2 (F := Ideal) ⟨n, hn⟩ (st_k1_t1 (F := Ideal) Variants.none c none i arg1 harg1 arg2 harg2 arg3 harg3 arg4 harg4 (harg1.unread x0) (harg2.unread x1)
      (k1_pay1 (F := Ideal)) n) _ _ = accUpTo x0 x1 (n + 1)
    rw [st_eq n (Nat.le_of_lt hn), accUpTo, dif_pos hn]

/-- The loop's result on the two blocks is the tile. -/
theorem st_trips :
    st_k1_t1 (F := Ideal) Variants.none c none i arg1 harg1 arg2 harg2 arg3 harg3 arg4 harg4 (harg1.unread x0) (harg2.unread x1)
      (k1_pay1 (F := Ideal)) k1_t1_loop.trips = accTile x0 x1 :=
  st_eq c i arg1 harg1 arg2 harg2 arg3 harg3 arg4 harg4 x0 x1 k1_t1_loop.trips le_rfl

theorem outA2 (hc0 : cond1_0 i) :
    out1_A_2 (F := Ideal) c i arg1 harg1 arg2 harg2 arg3 harg3 arg4 harg4 hc0 x0 x1 = accTile x0 x1 := by
  unfold out1_A_2
  rw [View.read_writes_eq_canon _ _ _ (cover1_A_2 c i arg1 harg1 arg2 harg2 arg3 harg3 arg4 harg4 hc0 x0 x1)]
  unfold kernelRun1_A
  dsimp only
  sl_unfold_words
  rw [View.canon_unit_zero off00_eq]
  exact st_trips c i arg1 harg1 arg2 harg2 arg3 harg3 arg4 harg4 x0 x1

theorem outA3 (hc0 : cond1_0 i) :
    out1_A_3 (F := Ideal) c i arg1 harg1 arg2 harg2 arg3 harg3 arg4 harg4 hc0 x0 x1
      = k1_pay4 (F := Ideal) i (accTile x0 x1) (k1_pay3 (F := Ideal)) := by
  unfold out1_A_3
  rw [View.read_writes_eq_canon _ _ _ (cover1_A_3 c i arg1 harg1 arg2 harg2 arg3 harg3 arg4 harg4 hc0 x0 x1)]
  unfold kernelRun1_A
  dsimp only
  sl_unfold_words
  rw [View.canon_cons_unit_zero (S := S64x1) off00_eq, View.readCov_unit_zero (S := S64x1) _ off00_eq]
  exact congrArg (fun a => k1_pay4 (F := Ideal) i a (k1_pay3 (F := Ideal)))
    (st_trips c i arg1 harg1 arg2 harg2 arg3 harg3 arg4 harg4 x0 x1)

theorem outB2 (hc0 : ¬cond1_0 i) (xo3 : Vec Ideal S64x1 .f32) :
    out1_B_2 (F := Ideal) c i arg1 harg1 arg2 harg2 arg3 harg3 arg4 harg4 hc0 x0 x1 xo3 = accTile x0 x1 := by
  unfold out1_B_2
  rw [View.read_writes_eq_canon _ _ _ (cover1_B_2 c i arg1 harg1 arg2 harg2 arg3 harg3 arg4 harg4 hc0 x0 x1 xo3)]
  unfold kernelRun1_B
  dsimp only
  sl_unfold_words
  rw [View.canon_unit_zero off00_eq]
  exact st_trips c i arg1 harg1 arg2 harg2 arg3 harg3 arg4 harg4 x0 x1

theorem outB3 (hc0 : ¬cond1_0 i) (xo3 : Vec Ideal S64x1 .f32) :
    out1_B_3 (F := Ideal) c i arg1 harg1 arg2 harg2 arg3 harg3 arg4 harg4 hc0 x0 x1 xo3
      = k1_pay4 (F := Ideal) i (accTile x0 x1) xo3 := by
  unfold out1_B_3
  rw [View.read_writes_eq_canon _ _ _ (cover1_B_3 c i arg1 harg1 arg2 harg2 arg3 harg3 arg4 harg4 hc0 x0 x1 xo3)]
  unfold kernelRun1_B
  dsimp only
  sl_unfold_words
  rw [View.canon_unit_zero off00_eq, View.readAt_eq_ld, harg4.read_unread, View.ld_unit_zero (S := S64x1) off00_eq]
  exact congrArg (fun a => k1_pay4 (F := Ideal) i a xo3)
    (st_trips c i arg1 harg1 arg2 harg2 arg3 harg3 arg4 harg4 x0 x1)

end Cert.KernelIdeal.R1

end
-- ==== Proof.Region1.lean ====
/-
  The second kernel's two result arrays: the [64, 50176] array of gathered sums, tile by tile, and the [64, 1] column
  of row sums, accumulated over the 49 tiles and written back after the last.
-/
import proofs.«413212_j33294586478786_1_alg».proof.Proof.Gen.KernelIdeal.Frame
import proofs.«413212_j33294586478786_1_alg».proof.Proof.R1Pay
import proofs.«413212_j33294586478786_1_alg».proof.Proof.R1Cases

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

variable (V : (c : Dev nD) → (b : Ref sig .tc) → Buf (Elt Ideal) ((c : Thread nD τ).loc b))

namespace Arr

/-- There are 49 grid points. -/
theorem pt_lt (t : Fin cfg1.N) : t.val < 49 := lt_of_lt_of_eq t.isLt N_1

/-- Where each window's block sits at grid point t, and the point's one coordinate: the tiles of the partition map and
    of the gathered sums move along the columns with t; the probabilities and the row-sum column stay. -/
theorem idx_facts : ∀ t : Fin cfg1.N,
    (grid1.coords t 0).val = t.val
    ∧ win1_0.index t (0 : Fin 3) = 0 ∧ win1_0.index t (1 : Fin 3) = 0 ∧ win1_0.index t (2 : Fin 3) = t.val
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = t.val
    ∧ win1_3.index t (0 : Fin 2) = 0 ∧ win1_3.index t (1 : Fin 2) = 0 :=
  (by decide +kernel : ∀ t : Fin grid1.N, _)

/-- Tile t of the partition map, entry (p, 0, j), is the map's entry (p, 0, 1024 t + j). -/
theorem blk0_read (c : Dev nD) (t : Fin cfg1.N) (p : Fin 16) (j : Fin 1024) :
    iblk1 (F := Ideal) V c 0 t (ix3 p 0 j)
      = V c main_v4 (ix3 p 0 (⟨t.val * 1024 + j.val, by have := pt_lt t; omega⟩ : Fin 50176)) := by
  obtain ⟨_, e0, e1, e2, _⟩ := idx_facts t
  show V c main_v4 (((cfg1.win 0).blk t).view.emb (ix3 p 0 j)) = _
  refine congrArg (V c main_v4) ?_
  funext a; apply Fin.ext
  match a with
  | ⟨0, _⟩ => show win1_0.index t (0 : Fin 3) * 16 + 1 * p.val = p.val; omega
  | ⟨1, _⟩ => show win1_0.index t (1 : Fin 3) * 1 + 1 * 0 = 0; omega
  | ⟨2, _⟩ => show win1_0.index t (2 : Fin 3) * 1024 + 1 * j.val = t.val * 1024 + j.val; omega

/-- The probabilities' block is the whole array at every point. -/
theorem blk1_read (c : Dev nD) (t : Fin cfg1.N) (p : Fin 16) (r : Fin 64) (k : Fin 1000) :
    iblk1 (F := Ideal) V c 1 t (ix3 p r k) = V c main_v2 (ix3 p r k) := by
  obtain ⟨_, _, _, _, e0, e1, e2, _⟩ := idx_facts t
  show V c main_v2 (((cfg1.win 1).blk t).view.emb (ix3 p r k)) = _
  refine congrArg (V c main_v2) ?_
  funext a; apply Fin.ext
  match a with
  | ⟨0, _⟩ => show win1_1.index t (0 : Fin 3) * 16 + 1 * p.val = p.val; omega
  | ⟨1, _⟩ => show win1_1.index t (1 : Fin 3) * 64 + 1 * r.val = r.val; omega
  | ⟨2, _⟩ => show win1_1.index t (2 : Fin 3) * 1000 + 1 * k.val = k.val; omega

/-- If the tile of the map holds the map's columns from cc on and the probabilities' block holds the probabilities, the
    loop's tile at (r, j) is the gathered sum of class column cc for row r. -/
theorem tile_eq (x0 : Vec Ideal S16x1x1024 .i32) (x1 : Vec Ideal S16x64x1000 .f32)
    (pp : IVec ⟨3, ![16, 1, 50176]⟩ 32) (P : FVec Ideal ⟨3, ![16, 64, 1000]⟩ .f32)
    (r : Fin 64) (j : Fin 1024) (cc : Fin 50176)
    (h0 : ∀ p : Fin 16, x0 (ix3 p 0 j) = pp (ix3 p 0 cc))
    (h1 : ∀ (p : Fin 16) (k : Fin 1000), x1 (ix3 p r k) = P (ix3 p r k)) :
    accTile x0 x1 (ix2 r j) = Cert.Spec.outRaw pp P r cc := by
  rw [accTile_apply]
  unfold Cert.Spec.outRaw Cert.Spec.hit
  refine Finset.sum_congr rfl fun p _ => Finset.sum_congr rfl fun k _ => ?_
  rw [h0 p, h1 p k]

/-- The sum of row r over tile t's columns that are real classes. -/
def tileSum (pp : IVec ⟨3, ![16, 1, 50176]⟩ 32) (P : FVec Ideal ⟨3, ![16, 64, 1000]⟩ .f32) (r : Fin 64) (t : ℕ) : EReal :=
  ∑ j : Fin 1024, if h : t * 1024 + j.val < 50000 then Cert.Spec.outRaw pp P r ⟨t * 1024 + j.val, by omega⟩ else 0

/-- The row's sum is the sum of its 49 tile sums. -/
theorem rowSum_eq (pp : IVec ⟨3, ![16, 1, 50176]⟩ 32) (P : FVec Ideal ⟨3, ![16, 64, 1000]⟩ .f32) (r : Fin 64) :
    Cert.Spec.rowSum pp P r = ∑ t ∈ Finset.range 49, tileSum pp P r t := by
  rw [← Fin.sum_univ_eq_sum_range (fun t => tileSum pp P r t) 49]
  rfl

/-- The accumulating store at point t: the column's old entry plus tile t's masked sum. -/
theorem col_step (i : grid1.Coords) (t : ℕ) (hi : (i 0).val = t) (ht : t < 49)
    (x0 : Vec Ideal S16x1x1024 .i32) (x1 : Vec Ideal S16x64x1000 .f32) (xo : Vec Ideal S64x1 .f32)
    (pp : IVec ⟨3, ![16, 1, 50176]⟩ 32) (P : FVec Ideal ⟨3, ![16, 64, 1000]⟩ .f32) (r : Fin 64)
    (h0 : ∀ (p : Fin 16) (j : Fin 1024), x0 (ix3 p 0 j) = pp (ix3 p 0 (⟨t * 1024 + j.val, by omega⟩ : Fin 50176)))
    (h1 : ∀ (p : Fin 16) (k : Fin 1000), x1 (ix3 p r k) = P (ix3 p r k)) :
    k1_pay4 (F := Ideal) i (accTile x0 x1) xo (ix2 r 0) = xo (ix2 r 0) + tileSum pp P r t := by
  rw [pay4_apply i (by omega) (accTile x0 x1) xo r]
  refine congrArg (fun s => xo (ix2 r 0) + s) ?_
  unfold tileSum
  refine Finset.sum_congr rfl fun j _ => ?_
  rw [hi]
  by_cases h : t * 1024 + j.val < 50000
  · rw [if_pos h, dif_pos h]
    exact tile_eq x0 x1 pp P r j _ (fun p => h0 p j) h1
  · rw [if_neg h, dif_neg h]

/-- THE TILE BUFFER after point t holds tile t of the gathered sums, whichever case the point is. -/
theorem outs_tile (c : Dev nD) (t : Fin cfg1.N) (r : Fin 64) (j : Fin 1024) :
    (outsAt1 (F := Ideal) V c t.val t.isLt).1 (ix2 r j)
      = Cert.Spec.outRaw (V c main_v4) (V c main_v2) r (⟨t.val * 1024 + j.val, by have := pt_lt t; omega⟩ : Fin 50176) := by
  by_cases h : t.val % 49 = 0
  · rw [outsAt1_A V c t h]; dsimp only
    refine (congrFun (outA2 c (grid1.coords t) (ms1_0 t) (hs1_0 t) (ms1_1 t) (hs1_1 t) (ms1_2 t) (hs1_2 t) (ms1_3 t) (hs1_3 t)
      (iblk1 (F := Ideal) V c 0 t) (iblk1 (F := Ideal) V c 1 t) ((hcond1_0 t).mpr h)) (ix2 r j)).trans ?_
    exact tile_eq (iblk1 (F := Ideal) V c 0 t) (iblk1 (F := Ideal) V c 1 t) (V c main_v4) (V c main_v2) r j
      ⟨t.val * 1024 + j.val, by have := pt_lt t; omega⟩ (fun p => blk0_read V c t p j) (fun p k => blk1_read V c t p r k)
  · rw [outsAt1_B V c t h]; dsimp only
    refine (congrFun (outB2 c (grid1.coords t) (ms1_0 t) (hs1_0 t) (ms1_1 t) (hs1_1 t) (ms1_2 t) (hs1_2 t) (ms1_3 t) (hs1_3 t)
      (iblk1 (F := Ideal) V c 0 t) (iblk1 (F := Ideal) V c 1 t) (fun h' => h ((hcond1_0 t).mp h'))
      (outsAt1 (F := Ideal) V c (t.val - 1) (Nat.lt_of_le_of_lt (Nat.sub_le _ _) t.isLt)).2) (ix2 r j)).trans ?_
    exact tile_eq (iblk1 (F := Ideal) V c 0 t) (iblk1 (F := Ideal) V c 1 t) (V c main_v4) (V c main_v2) r j
      ⟨t.val * 1024 + j.val, by have := pt_lt t; omega⟩ (fun p => blk0_read V c t p j) (fun p k => blk1_read V c t p r k)

/-- THE ROW-SUM COLUMN after point n holds the sum of the tile sums of tiles 0 … n: by induction on the point. -/
theorem outs_col (c : Dev nD) (r : Fin 64) : ∀ (n : ℕ) (hn : n < cfg1.N),
    (outsAt1 (F := Ideal) V c n hn).2 (ix2 r 0)
      = ∑ t ∈ Finset.range (n + 1), tileSum (V c main_v4) (V c main_v2) r t
  | 0, hn => by
    have h : (⟨0, hn⟩ : Fin cfg1.N).val % 49 = 0 := rfl
    rw [outsAt1_A V c ⟨0, hn⟩ h]; dsimp only
    refine (congrFun (outA3 c (grid1.coords ⟨0, hn⟩) (ms1_0 ⟨0, hn⟩) (hs1_0 ⟨0, hn⟩) (ms1_1 ⟨0, hn⟩) (hs1_1 ⟨0, hn⟩)
      (ms1_2 ⟨0, hn⟩) (hs1_2 ⟨0, hn⟩) (ms1_3 ⟨0, hn⟩) (hs1_3 ⟨0, hn⟩)
      (iblk1 (F := Ideal) V c 0 ⟨0, hn⟩) (iblk1 (F := Ideal) V c 1 ⟨0, hn⟩) ((hcond1_0 ⟨0, hn⟩).mpr h)) (ix2 r 0)).trans ?_
    rw [col_step (grid1.coords ⟨0, hn⟩) 0 (idx_facts ⟨0, hn⟩).1 (by omega)
      (iblk1 (F := Ideal) V c 0 ⟨0, hn⟩) (iblk1 (F := Ideal) V c 1 ⟨0, hn⟩) (k1_pay3 (F := Ideal))
      (V c main_v4) (V c main_v2) r (fun p j => blk0_read V c ⟨0, hn⟩ p j) (fun p k => blk1_read V c ⟨0, hn⟩ p r k)]
    rw [pay3_apply, zero_add, Finset.sum_range_one]
  | n + 1, hn => by
    have hN : n + 1 < 49 := lt_of_lt_of_eq hn N_1
    have h : ¬(⟨n + 1, hn⟩ : Fin cfg1.N).val % 49 = 0 := by dsimp only; omega
    rw [outsAt1_B V c ⟨n + 1, hn⟩ h]; dsimp only
    refine (congrFun (outB3 c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) (ms1_3 ⟨n + 1, hn⟩) (hs1_3 ⟨n + 1, hn⟩)
      (iblk1 (F := Ideal) V c 0 ⟨n + 1, hn⟩) (iblk1 (F := Ideal) V c 1 ⟨n + 1, hn⟩) (fun h' => h ((hcond1_0 ⟨n + 1, hn⟩).mp h'))
      (outsAt1 (F := Ideal) V c n (Nat.lt_of_succ_lt hn)).2) (ix2 r 0)).trans ?_
    rw [col_step (grid1.coords ⟨n + 1, hn⟩) (n + 1) (idx_facts ⟨n + 1, hn⟩).1 hN
      (iblk1 (F := Ideal) V c 0 ⟨n + 1, hn⟩) (iblk1 (F := Ideal) V c 1 ⟨n + 1, hn⟩) (outsAt1 (F := Ideal) V c n (Nat.lt_of_succ_lt hn)).2
      (V c main_v4) (V c main_v2) r (fun p j => blk0_read V c ⟨n + 1, hn⟩ p j) (fun p k => blk1_read V c ⟨n + 1, hn⟩ p r k)]
    rw [Finset.sum_range_succ _ (n + 1), outs_col c r n (Nat.lt_of_succ_lt hn)]

/-! ## The array of gathered sums -/

/-- What point t writes back of the tile buffer is tile t of the gathered sums. -/
theorem flushed2_eq (c : Dev nD) (t : Fin cfg1.N) :
    (dat1 (F := Ideal) V c).flushed 2 t
      = ((cfg1.win 2).blk t).view.read (Elt Ideal) (Cert.Spec.outArr (V c main_v4) (V c main_v2)) := by
  show (cfg1.win 2).cut (grid1.coords t) ((dat1 (F := Ideal) V c).after 2 t) = _
  rw [after1_2]
  obtain ⟨_, _, _, _, _, _, _, e0, e1, _⟩ := idx_facts t
  funext y
  obtain ⟨r, j, rfl⟩ : ∃ (r : Fin 64) (j : Fin 1024), y = ix2 r j := ⟨y 0, y 1, eq_ix2 y⟩
  show (outsAt1 (F := Ideal) V c t.val t.isLt).1 (ix2 r j)
    = Cert.Spec.outArr (V c main_v4) (V c main_v2) (((cfg1.win 2).blk t).view.emb (ix2 r j))
  have hemb : ((cfg1.win 2).blk t).view.emb (ix2 r j)
      = ix2 r (⟨t.val * 1024 + j.val, by have := pt_lt t; omega⟩ : Fin 50176) := by
    funext a; apply Fin.ext
    match a with
    | ⟨0, _⟩ => show win1_2.index t (0 : Fin 2) * 64 + 1 * r.val = r.val; omega
    | ⟨1, _⟩ => show win1_2.index t (1 : Fin 2) * 1024 + 1 * j.val = t.val * 1024 + j.val; omega
  rw [hemb]
  exact outs_tile V c t r j

/-- An index of the array lies in point t's tile iff each coordinate lies in the tile's range on its axis. -/
theorem mem_blk2 (t : Fin cfg1.N) (i : S64x50176.Idx) :
    i ∈ ((cfg1.win 2).blk t).view.set ↔ ∀ a : Fin 2, win1_2.index t a * S64x1024.size a ≤ (i a).val
      ∧ (i a).val < win1_2.index t a * S64x1024.size a + S64x1024.size a := by
  show i ∈ ((View.whole main_v5_0).slice (win1_2.rect t)).set ↔ _
  rw [View.set_slice_whole, Rect.mem_set_unit]
  exact Iff.rfl

/-- Column cc lies in tile cc / 1024, and every point writes its tile back: the 49 tiles cover the array. -/
theorem cover2 (i : S64x50176.Idx) :
    ∃ t : Fin cfg1.N, (cfg1.win 2).flush t = true ∧ i ∈ ((cfg1.win 2).blk t).view.set := by
  have hi0 : (i 0).val < 64 := (i 0).isLt
  have hi1 : (i 1).val < 50176 := (i 1).isLt
  have hN : (i 1).val / 1024 < cfg1.N := lt_of_lt_of_eq (by omega : (i 1).val / 1024 < 49) N_1.symm
  obtain ⟨_, _, _, _, _, _, _, e0, e1, _⟩ := idx_facts ⟨(i 1).val / 1024, hN⟩
  refine ⟨⟨(i 1).val / 1024, hN⟩, flush1_2 _, ?_⟩
  rw [mem_blk2]
  intro a
  match a with
  | ⟨0, _⟩ =>
    show win1_2.index ⟨(i 1).val / 1024, hN⟩ (0 : Fin 2) * 64 ≤ (i 0).val
      ∧ (i 0).val < win1_2.index ⟨(i 1).val / 1024, hN⟩ (0 : Fin 2) * 64 + 64
    omega
  | ⟨1, _⟩ =>
    show win1_2.index ⟨(i 1).val / 1024, hN⟩ (1 : Fin 2) * 1024 ≤ (i 1).val
      ∧ (i 1).val < win1_2.index ⟨(i 1).val / 1024, hN⟩ (1 : Fin 2) * 1024 + 1024
    have e1' : win1_2.index ⟨(i 1).val / 1024, hN⟩ (1 : Fin 2) = (i 1).val / 1024 := e1
    omega

/-! ## The column of row sums -/

/-- The last point is the one that writes the column back. -/
theorem last_lt : 48 < cfg1.N := lt_of_lt_of_eq (by omega : 48 < 49) N_1.symm

/-- The one write-back of the column, after the last point, writes the row sums. -/
theorem flushed3_eq (c : Dev nD) (t : Fin cfg1.N) (hf : (cfg1.win 3).flush t = true) :
    (dat1 (F := Ideal) V c).flushed 3 t
      = ((cfg1.win 3).blk t).view.read (Elt Ideal) (Cert.Spec.rowSumArr (V c main_v4) (V c main_v2)) := by
  have h48 : t.val = 48 := by have := (flush1_3 t).mp hf; have := pt_lt t; omega
  show (cfg1.win 3).cut (grid1.coords t) ((dat1 (F := Ideal) V c).after 3 t) = _
  rw [after1_3]
  obtain ⟨_, _, _, _, _, _, _, _, _, e0, e1⟩ := idx_facts t
  funext y
  obtain ⟨r, z, rfl⟩ : ∃ (r : Fin 64) (z : Fin 1), y = ix2 r z := ⟨y 0, y 1, eq_ix2 y⟩
  obtain rfl : z = 0 := Subsingleton.elim _ _
  show (outsAt1 (F := Ideal) V c t.val t.isLt).2 (ix2 r 0)
    = Cert.Spec.rowSumArr (V c main_v4) (V c main_v2) (((cfg1.win 3).blk t).view.emb (ix2 r 0))
  have hemb : ((cfg1.win 3).blk t).view.emb (ix2 r 0) = ix2 r (0 : Fin 1) := by
    funext a; apply Fin.ext
    match a with
    | ⟨0, _⟩ => show win1_3.index t (0 : Fin 2) * 64 + 1 * r.val = r.val; omega
    | ⟨1, _⟩ => show win1_3.index t (1 : Fin 2) * 1 + 1 * 0 = 0; omega
  rw [hemb, outs_col V c r t.val t.isLt, h48]
  exact (rowSum_eq (V c main_v4) (V c main_v2) r).symm

/-- An index of the column lies in point t's block iff each coordinate lies in the block's range on its axis. -/
theorem mem_blk3 (t : Fin cfg1.N) (i : S64x1.Idx) :
    i ∈ ((cfg1.win 3).blk t).view.set ↔ ∀ a : Fin 2, win1_3.index t a * S64x1.size a ≤ (i a).val
      ∧ (i a).val < win1_3.index t a * S64x1.size a + S64x1.size a := by
  show i ∈ ((View.whole main_v5_1).slice (win1_3.rect t)).set ↔ _
  rw [View.set_slice_whole, Rect.mem_set_unit]
  exact Iff.rfl

/-- The last point's block is the whole column. -/
theorem cover3 (i : S64x1.Idx) :
    ∃ t : Fin cfg1.N, (cfg1.win 3).flush t = true ∧ i ∈ ((cfg1.win 3).blk t).view.set := by
  have hi0 : (i 0).val < 64 := (i 0).isLt
  have hi1 : (i 1).val < 1 := (i 1).isLt
  obtain ⟨_, _, _, _, _, _, _, _, _, e0, e1⟩ := idx_facts ⟨48, last_lt⟩
  refine ⟨⟨48, last_lt⟩, (flush1_3 _).mpr rfl, ?_⟩
  rw [mem_blk3]
  intro a
  match a with
  | ⟨0, _⟩ =>
    show win1_3.index ⟨48, last_lt⟩ (0 : Fin 2) * 64 ≤ (i 0).val
      ∧ (i 0).val < win1_3.index ⟨48, last_lt⟩ (0 : Fin 2) * 64 + 64
    omega
  | ⟨1, _⟩ =>
    show win1_3.index ⟨48, last_lt⟩ (1 : Fin 2) * 1 ≤ (i 1).val
      ∧ (i 1).val < win1_3.index ⟨48, last_lt⟩ (1 : Fin 2) * 1 + 1
    omega

end Arr

/-! ## The two arrays -/

theorem region1_out (c : Dev nD) :
    (dat1 (F := Ideal) V c).arrAt 2 cfg1.N = Cert.Spec.outArr (V c main_v4) (V c main_v2) :=
  (dat1 (F := Ideal) V c).arrAt_eq_of_cover 2 (Cert.Spec.outArr (V c main_v4) (V c main_v2))
    (fun t _ => Arr.flushed2_eq V c t) (fun i => Arr.cover2 i)

theorem region1_rs (c : Dev nD) :
    (dat1 (F := Ideal) V c).arrAt 3 cfg1.N = Cert.Spec.rowSumArr (V c main_v4) (V c main_v2) :=
  (dat1 (F := Ideal) V c).arrAt_eq_of_cover 3 (Cert.Spec.rowSumArr (V c main_v4) (V c main_v2))
    (fun t hf => Arr.flushed3_eq V c t hf) (fun i => Arr.cover3 i)

end Cert.KernelIdeal.R1

end
-- ==== Proof.Region2.lean ====
/-
  The third kernel's result array: tile by tile, each gathered sum divided by its row's sum, the constant added, the
  logarithm taken.
-/
import proofs.«413212_j33294586478786_1_alg».proof.Proof.Gen.KernelIdeal.Frame
import proofs.«413212_j33294586478786_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.R2

open Cert.KernelIdeal Cert.KernelIdeal.Gen

variable (V : (c : Dev nD) → (b : Ref sig .tc) → Buf (Elt Ideal) ((c : Thread nD τ).loc b))

/-- The two zero offsets of a whole-block access, as a constant function. -/
theorem zeroOffsets : (![0, 0] : Fin 2 → Nat) = fun _ => 0 :=
  funext fun a => by match a with | ⟨0, _⟩ => rfl | ⟨1, _⟩ => rfl

/-- The kernel's value at row r, lane j of a tile: the tile's entry over the row's sum, the constant added, the
    logarithm taken. -/
theorem pay_apply (v0 : Vec Ideal S64x1024 .f32) (v2 : Vec Ideal S64x1 .f32) (r : Fin 64) (j : Fin 1024) :
    k2_pay1 v0 v2 (ix2 r j)
      = Ideal.log (Ideal.div (v0 (ix2 r j)) (v2 (ix2 r 0)) + Ideal.ofBits .f32 0x1E3CE508#32) := by
  unfold k2_pay1
  simp only [shapeCast_self]
  rw [show ∀ (w : FVec Ideal S64x1024 .f32), (log w) (ix2 r j) = Ideal.log (w (ix2 r j)) from fun _ => rfl]
  rw [addf_apply, divf_apply, broadcast_apply]
  rw [broadcastTo_apply v2 broadcasts_S64x1_S64x1024 (ix2 r j) (ix2 r 0) (by
    intro a; match a with | ⟨0, _⟩ => rfl | ⟨1, _⟩ => rfl)]
  rfl

/-- If the tile's entry is the array's entry at column cc and the column block's entry is the row sum, the kernel's
    value there is the renormalised logarithm at (r, cc). -/
theorem point_eq (x0 : Vec Ideal S64x1024 .f32) (x1 : Vec Ideal S64x1 .f32)
    (o : FVec Ideal ⟨2, ![64, 50176]⟩ .f32) (rs : FVec Ideal ⟨2, ![64, 1]⟩ .f32)
    (r : Fin 64) (j : Fin 1024) (cc : Fin 50176)
    (h0 : x0 (ix2 r j) = o (ix2 r cc)) (h1 : x1 (ix2 r 0) = rs (ix2 r 0)) :
    k2_pay1 x0 x1 (ix2 r j) = Cert.Spec.finalArr o rs (ix2 r cc) := by
  rw [pay_apply, h0, h1]; rfl

/-- There are 49 grid points. -/
theorem pt_lt (t : Fin cfg2.N) : t.val < 49 := lt_of_lt_of_eq t.isLt N_2

/-- Where each window's block sits at grid point t: the tiles of the first and third windows move along the columns
    with t, the second window's one block stays. -/
theorem idx_facts : ∀ t : Fin cfg2.N,
    win2_0.index t (0 : Fin 2) = 0 ∧ win2_0.index t (1 : Fin 2) = t.val
    ∧ win2_1.index t (0 : Fin 2) = 0 ∧ win2_1.index t (1 : Fin 2) = 0
    ∧ win2_2.index t (0 : Fin 2) = 0 ∧ win2_2.index t (1 : Fin 2) = t.val :=
  (by decide +kernel : ∀ t : Fin grid2.N, _)

/-- Tile t of the gathered sums, entry (r, j), is the array's entry (r, 1024 t + j). -/
theorem blk0_read (c : Dev nD) (t : Fin cfg2.N) (r : Fin 64) (j : Fin 1024) :
    iblk2 (F := Ideal) V c 0 t (ix2 r j)
      = V c main_v5_0 (ix2 r (⟨t.val * 1024 + j.val, by have := pt_lt t; omega⟩ : Fin 50176)) := by
  obtain ⟨e0, e1, e2, e3, e4, e5⟩ := idx_facts t
  show V c main_v5_0 (((cfg2.win 0).blk t).view.emb (ix2 r j)) = _
  refine congrArg (V c main_v5_0) ?_
  funext a; apply Fin.ext
  match a with
  | ⟨0, _⟩ => show win2_0.index t (0 : Fin 2) * 64 + 1 * r.val = r.val; omega
  | ⟨1, _⟩ => show win2_0.index t (1 : Fin 2) * 1024 + 1 * j.val = t.val * 1024 + j.val; omega

/-- The row sums' block is the whole column at every point. -/
theorem blk1_read (c : Dev nD) (t : Fin cfg2.N) (r : Fin 64) :
    iblk2 (F := Ideal) V c 1 t (ix2 r 0) = V c main_v5_1 (ix2 r 0) := by
  obtain ⟨e0, e1, e2, e3, e4, e5⟩ := idx_facts t
  show V c main_v5_1 (((cfg2.win 1).blk t).view.emb (ix2 r 0)) = _
  refine congrArg (V c main_v5_1) ?_
  funext a; apply Fin.ext
  match a with
  | ⟨0, _⟩ => show win2_1.index t (0 : Fin 2) * 64 + 1 * r.val = r.val; omega
  | ⟨1, _⟩ => show win2_1.index t (1 : Fin 2) * 1 + 1 * 0 = 0; omega

/-- What point t writes back is tile t of the renormalised logarithms. -/
theorem flushed_eq (c : Dev nD) (t : Fin cfg2.N) :
    (dat2 (F := Ideal) V c).flushed 2 t
      = ((cfg2.win 2).blk t).view.read (Elt Ideal) (Cert.Spec.finalArr (V c main_v5_0) (V c main_v5_1)) := by
  show (cfg2.win 2).cut (grid2.coords t) ((dat2 (F := Ideal) V c).after 2 t) = _
  rw [after2_2]
  unfold out2_2
  rw [View.canon_unit_zero zeroOffsets]
  simp only [View.ld_unit_zero (S := S64x1024) zeroOffsets, View.ld_unit_zero (S := S64x1) zeroOffsets]
  obtain ⟨e0, e1, e2, e3, e4, e5⟩ := idx_facts t
  funext y
  obtain ⟨r, j, rfl⟩ : ∃ (r : Fin 64) (j : Fin 1024), y = ix2 r j := ⟨y 0, y 1, eq_ix2 y⟩
  show k2_pay1 (iblk2 (F := Ideal) V c 0 t) (iblk2 (F := Ideal) V c 1 t) (ix2 r j)
    = Cert.Spec.finalArr (V c main_v5_0) (V c main_v5_1) (((cfg2.win 2).blk t).view.emb (ix2 r j))
  have hemb : ((cfg2.win 2).blk t).view.emb (ix2 r j)
      = ix2 r (⟨t.val * 1024 + j.val, by have := pt_lt t; omega⟩ : Fin 50176) := by
    funext a; apply Fin.ext
    match a with
    | ⟨0, _⟩ => show win2_2.index t (0 : Fin 2) * 64 + 1 * r.val = r.val; omega
    | ⟨1, _⟩ => show win2_2.index t (1 : Fin 2) * 1024 + 1 * j.val = t.val * 1024 + j.val; omega
  rw [hemb]
  exact point_eq (iblk2 (F := Ideal) V c 0 t) (iblk2 (F := Ideal) V c 1 t) (V c main_v5_0) (V c main_v5_1) r j
    ⟨t.val * 1024 + j.val, by have := pt_lt t; omega⟩ (blk0_read V c t r j) (blk1_read V c t r)

/-- An index of the array lies in point t's tile iff each coordinate lies in the tile's range on its axis. -/
theorem mem_blk (t : Fin cfg2.N) (i : S64x50176.Idx) :
    i ∈ ((cfg2.win 2).blk t).view.set ↔ ∀ a : Fin 2, win2_2.index t a * S64x1024.size a ≤ (i a).val
      ∧ (i a).val < win2_2.index t a * S64x1024.size a + S64x1024.size a := by
  show i ∈ ((View.whole main_v6).slice (win2_2.rect t)).set ↔ _
  rw [View.set_slice_whole, Rect.mem_set_unit]
  exact Iff.rfl

/-- Column cc lies in tile cc / 1024, and every point writes its tile back: the 49 tiles cover the array. -/
theorem cover (i : S64x50176.Idx) :
    ∃ t : Fin cfg2.N, (cfg2.win 2).flush t = true ∧ i ∈ ((cfg2.win 2).blk t).view.set := by
  have hi0 : (i 0).val < 64 := (i 0).isLt
  have hi1 : (i 1).val < 50176 := (i 1).isLt
  have hN : (i 1).val / 1024 < cfg2.N := lt_of_lt_of_eq (by omega : (i 1).val / 1024 < 49) N_2.symm
  obtain ⟨e0, e1, e2, e3, e4, e5⟩ := idx_facts ⟨(i 1).val / 1024, hN⟩
  refine ⟨⟨(i 1).val / 1024, hN⟩, flush2_2 _, ?_⟩
  rw [mem_blk]
  intro a
  match a with
  | ⟨0, _⟩ =>
    show win2_2.index ⟨(i 1).val / 1024, hN⟩ (0 : Fin 2) * 64 ≤ (i 0).val
      ∧ (i 0).val < win2_2.index ⟨(i 1).val / 1024, hN⟩ (0 : Fin 2) * 64 + 64
    omega
  | ⟨1, _⟩ =>
    show win2_2.index ⟨(i 1).val / 1024, hN⟩ (1 : Fin 2) * 1024 ≤ (i 1).val
      ∧ (i 1).val < win2_2.index ⟨(i 1).val / 1024, hN⟩ (1 : Fin 2) * 1024 + 1024
    have e5' : win2_2.index ⟨(i 1).val / 1024, hN⟩ (1 : Fin 2) = (i 1).val / 1024 := e5
    omega

theorem region2 (c : Dev nD) :
    (dat2 (F := Ideal) V c).arrAt 2 cfg2.N = Cert.Spec.finalArr (V c main_v5_0) (V c main_v5_1) :=
  (dat2 (F := Ideal) V c).arrAt_eq_of_cover 2 (Cert.Spec.finalArr (V c main_v5_0) (V c main_v5_1))
    (fun t _ => flushed_eq V c t) (fun i => cover i)

end Cert.KernelIdeal.R2

end
-- ==== Proof.KernelValue.lean ====
/-
  The kernel program's result from the entry point's arguments: the three kernels' arrays chained through the host
  operations between them.  The weights and the bias reach the first kernel regrouped by partitioning (a reshape reads
  the same row-major position); the partition map reaches the second padded with 176 zero columns and kept as
  [16, 1, 50176]; the probabilities pass from the first kernel to the second untouched by the host operations between;
  the third kernel reads the second's two arrays; the result is the first 50000 columns of the third's.
-/
import proofs.«413212_j33294586478786_1_alg».proof.Proof.Gen.KernelIdeal.Frame
import proofs.«413212_j33294586478786_1_alg».proof.Proof.Spec
import proofs.«413212_j33294586478786_1_alg».proof.Proof.Region0
import proofs.«413212_j33294586478786_1_alg».proof.Proof.Region1
import proofs.«413212_j33294586478786_1_alg».proof.Proof.Region2
import Idealize.ShloMosaic.Lib.Pipeline.Value
import Idealize.ShloMosaic.Lib.KernelVsHost
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (m : (ℓ : Loc nD τ sig) → Buf (Elt Ideal) ℓ) (ρ : Dev nD → PrngReg) (c : Dev nD)

/-- No operation of a host stretch writes the buffer: the stretch leaves it as it was. -/
local macro "not_written" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The first kernel's operands -/

theorem entry0_x : V1 m ρ c main_arg0 = m ((c : Thread nD τ).loc main_arg0) := by
  show StableHlo.after hostOps0 (W0 m ρ c) (Proc.devRef .tc main_arg0) = _
  exact (show _ = W0 m ρ c (Proc.devRef .tc main_arg0) by not_written hostOps0).trans rfl

theorem entry0_w : V1 m ρ c main_v0
    = shapeCast S16x1000x2048 (m ((c : Thread nD τ).loc main_arg1)) shapeCasts_S16000x2048_S16x1000x2048 := by
  show StableHlo.after hostOps0 (W0 m ρ c) (Proc.devRef .tc main_v0) = _
  dsimp only [hostOps0]
  after_results
  rfl

theorem entry0_b : V1 m ρ c main_v1
    = shapeCast S16x1x1000 (m ((c : Thread nD τ).loc main_arg2)) shapeCasts_S16000_S16x1x1000 := by
  show StableHlo.after hostOps0 (W0 m ρ c) (Proc.devRef .tc main_v1) = _
  dsimp only [hostOps0]
  after_results
  rfl

/-! ## The first kernel's array, and its way to the second kernel -/

theorem probs_after0 : W2 m ρ c (Proc.devRef .tc main_v2)
    = Cert.Spec.probArr (m ((c : Thread nD τ).loc main_arg0))
        (shapeCast S16x1000x2048 (m ((c : Thread nD τ).loc main_arg1)) shapeCasts_S16000x2048_S16x1000x2048)
        (shapeCast S16x1x1000 (m ((c : Thread nD τ).loc main_arg2)) shapeCasts_S16000_S16x1x1000) := by
  refine (W2_arr m ρ c 3).trans ((Cert.KernelIdeal.R0.region0 (V1 m ρ) c).trans ?_)
  rw [entry0_x, entry0_w, entry0_b]

theorem entry1_probs : V5 m ρ c main_v2 = W2 m ρ c (Proc.devRef .tc main_v2) := by
  show StableHlo.after hostOps1_2 (W4 m ρ c) (Proc.devRef .tc main_v2) = _
  refine (show _ = W4 m ρ c (Proc.devRef .tc main_v2) by not_written hostOps1_2).trans ?_
  refine (show StableHlo.after hostOps1_1 (W3 m ρ c) _ = W3 m ρ c (Proc.devRef .tc main_v2) by not_written hostOps1_1).trans ?_
  exact (show StableHlo.after hostOps1 (W2 m ρ c) _ = _ by not_written hostOps1)

theorem part_after0 : W2 m ρ c (Proc.devRef .tc main_arg3) = m ((c : Thread nD τ).loc main_arg3) := by
  refine (W2_of_ne m ρ c main_arg3 (by decide)).trans ?_
  exact (show StableHlo.after hostOps0 (W0 m ρ c) _ = W0 m ρ c (Proc.devRef .tc main_arg3) by not_written hostOps0).trans rfl

theorem entry1_map : V5 m ρ c main_v4
    = shapeCast S16x1x50176 (pad S16x50176 ![0, 0] ![0, 176] ![0, 0] (m ((c : Thread nD τ).loc main_arg3)) (constantI S_ 32 0#32)
        pads_S16x50000_S16x50176_000_01760 h_S_) shapeCasts_S16x50176_S16x1x50176 := by
  show StableHlo.after hostOps1_2 (StableHlo.after hostOps1_1 (StableHlo.after hostOps1 (W2 m ρ c))) (Proc.devRef .tc main_v4) = _
  dsimp only [hostOps1_2, hostOps1_1, hostOps1]
  after_results
  exact congrArg (fun z : IVec S16x50000 32 => shapeCast S16x1x50176 (pad S16x50176 ![0, 0] ![0, 176] ![0, 0] z (constantI S_ 32 0#32)
    pads_S16x50000_S16x50176_000_01760 h_S_) shapeCasts_S16x50176_S16x1x50176) (part_after0 m ρ c)

/-! ## The second kernel's arrays, the third's, and the slice -/

theorem out_after1 : V6 m ρ c main_v5_0 = Cert.Spec.outArr (V5 m ρ c main_v4) (V5 m ρ c main_v2) :=
  (W6_arr m ρ c 2).trans (Cert.KernelIdeal.R1.region1_out (V5 m ρ) c)

theorem rs_after1 : V6 m ρ c main_v5_1 = Cert.Spec.rowSumArr (V5 m ρ c main_v4) (V5 m ρ c main_v2) :=
  (W6_arr m ρ c 3).trans (Cert.KernelIdeal.R1.region1_rs (V5 m ρ) c)

theorem final_after2 : W7 m ρ c (Proc.devRef .tc main_v6) = Cert.Spec.finalArr (V6 m ρ c main_v5_0) (V6 m ρ c main_v5_1) :=
  (W7_arr m ρ c 2).trans (Cert.KernelIdeal.R2.region2 (V6 m ρ) c)

theorem result_slice : W8 m ρ c (Proc.devRef .tc main_v7)
    = extractStridedSlice S64x50000 ![0, 0] (W7 m ρ c (Proc.devRef .tc main_v6)) slices_S64x50176_S64x50000_0_0 := by
  show StableHlo.after hostOps3 (W7 m ρ c) (Proc.devRef .tc main_v7) = _
  dsimp only [hostOps3]
  after_results

/-! ## The host operations read at an index -/

/-- The weights regrouped: row k of partitioning p is row 1000 p + k of the flat table (the same row-major position). -/
theorem w3_eq (W : FVec Ideal S16000x2048 .f32) :
    shapeCast S16x1000x2048 W shapeCasts_S16000x2048_S16x1000x2048 = Cert.Spec.w3of W := by
  funext j
  refine shapeCast_apply W _ j (ix2 (Cert.Spec.flat (j 0) (j 1)) (j 2)) ?_
  rw [Shape.rowMajor_val_two, Shape.rowMajor_val_three]
  rfl

/-- The bias regrouped likewise. -/
theorem b3_eq (b : FVec Ideal S16000 .f32) :
    shapeCast S16x1x1000 b shapeCasts_S16000_S16x1x1000 = Cert.Spec.b3of b := by
  funext j
  refine shapeCast_apply b _ j (ix1 (Cert.Spec.flat (j 0) (j 2))) ?_
  rw [Shape.rowMajor_val_one, Shape.rowMajor_val_three]
  have h1 : (j 1).val < 1 := (j 1).isLt
  show (j 0).val * 1000 + (j 2).val = ((j 0).val * 1 + (j 1).val) * 1000 + (j 2).val
  omega

/-- The partition map padded with zero columns and kept as [16, 1, 50176]: the map's word on the first 50000
    columns, the zero word on the 176 appended ones. -/
theorem pp_eq (part : IVec S16x50000 32) :
    shapeCast S16x1x50176 (pad S16x50176 ![0, 0] ![0, 176] ![0, 0] part (constantI S_ 32 0#32)
        pads_S16x50000_S16x50176_000_01760 h_S_) shapeCasts_S16x50176_S16x1x50176 = Cert.Spec.ppof part := by
  funext j
  have h1 : (j 1).val < 1 := (j 1).isLt
  have h2 : (j 2).val < 50176 := (j 2).isLt
  refine (shapeCast_apply _ _ j (ix2 (j 0) (⟨(j 2).val, h2⟩ : Fin 50176)) ?_).trans ?_
  · rw [Shape.rowMajor_val_two, Shape.rowMajor_val_three]
    show (j 0).val * 50176 + (j 2).val = ((j 0).val * 1 + (j 1).val) * 50176 + (j 2).val
    omega
  · unfold Cert.Spec.ppof
    by_cases h : (j 2).val < 50000
    · rw [dif_pos h]
      refine pad_apply_of_inside _ _ _ part _ _ _ _ (ix2 (j 0) (⟨(j 2).val, h⟩ : Fin 50000)) fun a => ?_
      match a with
      | ⟨0, _⟩ => show (j 0).val = 0 + (j 0).val * (0 + 1); omega
      | ⟨1, _⟩ => show (j 2).val = 0 + (j 2).val * (0 + 1); omega
    · rw [dif_neg h]
      refine (pad_apply_of_not_inside _ _ _ part _ _ _ _ (1 : Fin 2) fun hin => h ?_).trans rfl
      have h4 : ((j 2).val - 0) / (0 + 1) < 50000 := hin.2.2
      show (j 2).val < 50000
      omega

/-! ## The whole -/

theorem result_val : W8 m ρ c (Proc.devRef .tc main_v7)
    = Cert.Spec.kernelResult (m ((c : Thread nD τ).loc main_arg0)) (m ((c : Thread nD τ).loc main_arg1))
        (m ((c : Thread nD τ).loc main_arg2)) (m ((c : Thread nD τ).loc main_arg3)) := by
  rw [result_slice, final_after2, out_after1, rs_after1, entry1_probs, probs_after0, entry1_map, w3_eq, b3_eq, pp_eq]
  funext i
  exact extractStridedSlice_apply _ _ _ i (ix2 (i 0) (Cert.Spec.padCol (i 1))) fun a => by
    match a with
    | ⟨0, _⟩ => show (i 0).val = 0 + (i 0).val; omega
    | ⟨1, _⟩ => show (i 1).val = 0 + (i 1).val; omega

end Cert.KernelIdeal.KV

end
-- ==== Proof.LibTRefCasts.lean ====
/-
  A typed reference's two transports are inverse to each other.

  A module-local function's operations are built over references that carry the type of the tensor value they hold;
  a function stated at the value's type is moved to the buffer's own type along the recorded equality of types, and
  back. A composed term over such operations therefore carries, around every intermediate value, the transport to
  the buffer's type followed by the transport back. The two cancel, whatever the reference and whatever the value.
-/
import Idealize.ShloMosaic.Lib.StableHlo

namespace Idealize.ShloMosaic.StableHlo.TRef

variable {sig : RefSig} {Val : EltTy → Type} {T : BufTy}

/-- To the buffer's type and back is the identity. -/
theorem ofBuf_toBuf (x : TRef sig T) (v : T.Contents Val) : x.ofBuf (x.toBuf v) = v := by
  obtain ⟨r, h1, h2, h3⟩ := x
  subst h1
  rfl

/-- From the buffer's type and back is the identity. -/
theorem toBuf_ofBuf (x : TRef sig T) (v : x.ref.ty.Contents Val) : x.toBuf (x.ofBuf v) = v := by
  obtain ⟨r, h1, h2, h3⟩ := x
  subst h1
  rfl

end Idealize.ShloMosaic.StableHlo.TRef
-- ==== Proof.RefValue.lean ====
/-
  The reference's result, index by index: the composed host operations of its run read as the functions of
  Spec.lean: logits, log-softmax with its shift, the exponential, the lookup in the flat table through the reshaped
  partition map, the sum over the partitionings, the row normalisation, the added constant and the logarithm.

  Two operations are read by hand.  The gather along axis 1 of the [64,16000] table by an [800000,1] column of start
  words: its entry (r, q) is the table at row r and at the column the start word q gives, read signed and clamped into
  [0, 15999].  The maximum over axis 2 of a [64,16,1000] array: its entry (r, p) is the fold of max over the 1000
  entries (r, p, k), from the initial value.  Every other operation reads one entry of each operand at an index
  computed from the literal shapes; the reshapes between [64,16000] and [64,16,1000], [16,50000] and [800000],
  [64,800000] and [64,16,50000] are the divisions with remainder by 1000 and by 50000.
-/
import proofs.«413212_j33294586478786_1_alg».proof.Proof.RefRun
import proofs.«413212_j33294586478786_1_alg».proof.Proof.RefRead
import proofs.«413212_j33294586478786_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.PRead

local notation "gd" => gather_S64x16000_S800000x1_S64x800000_0_1_n_n_1_1_641

/-! ## The two operations read by hand, and the wrap of a negative start word -/

/-- A start word read signed and clamped into the table's 16000 columns. -/
abbrev clampIdx (w : BitVec 32) : Fin 16000 := ⟨min w.toInt.toNat 15999, by omega⟩

/-- The gather read at (r, q): on axis 0 the result's own row (the one offset axis, no start, no batching); on axis 1
    the start word at (q, 0), signed and clamped to 16000 − 1 (the collapsed axis: slice size one, no offset). -/
theorem gather_read {α : Type} (tbl : S64x16000.Idx → α) (idx : IVec S800000x1 32) (r : Fin 64) (q : Fin 800000) :
    Host.gather gd tbl idx (ix2 r q) = tbl (ix2 r (clampIdx (idx (ix2 q 0)))) := by
  have h0 : GatherDims.start gd (ix2 r q) idx (0 : Fin S64x16000.rank) + GatherDims.batchCoord gd (ix2 r q) (0 : Fin S64x16000.rank)
      + GatherDims.offCoord gd (ix2 r q) (0 : Fin S64x16000.rank) = r.val := by
    rw [GatherDims.batchCoord_eq_zero _ _ _ List.not_mem_nil]
    unfold GatherDims.start GatherDims.offCoord
    rw [dif_neg (show (0 : Fin S64x16000.rank) ∉ GatherDims.startIndexMap gd by decide),
      dif_pos (show (0 : Fin S64x16000.rank) ∈ GatherDims.sKept gd by decide)]
    simp only [Nat.zero_add]
    rfl
  have h1 : GatherDims.start gd (ix2 r q) idx (1 : Fin S64x16000.rank) + GatherDims.batchCoord gd (ix2 r q) (1 : Fin S64x16000.rank)
      + GatherDims.offCoord gd (ix2 r q) (1 : Fin S64x16000.rank) = min (idx (ix2 q 0)).toInt.toNat 15999 := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin S64x16000.rank) ∈ GatherDims.startIndexMap gd from List.mem_singleton.mpr rfl)]
    have hsi : GatherDims.siIdx gd (ix2 r q) ⟨List.idxOf (1 : Fin S64x16000.rank) (GatherDims.startIndexMap gd),
        List.idxOf_lt_length_iff.2 (List.mem_singleton.mpr rfl)⟩ = ix2 q 0 := by
      funext b; refine Fin.ext ?_
      match b with
      | ⟨0, _⟩ => rfl
      | ⟨1, _⟩ => rfl
    rw [hsi]
    rfl
  unfold Host.gather
  refine congrArg tbl ?_
  funext a
  refine Fin.ext ?_
  match a with
  | ⟨0, _⟩ => exact h0
  | ⟨1, _⟩ => exact h1

/-- The maximum over axis 2 at (r, p): the fold of max over the entries (r, p, k), from the initial value's word. -/
theorem reduce_max_read (x : FVec Ideal S64x16x1000 .f32) (r : Fin 64) (p : Fin 16) :
    Host.reduce FloatOps.maximumf x (constant (F := Ideal) S_ .f32 0xFF800000#32) reducesTo_S64x16x1000_S64x16_d2 h_S_ (ix2 r p)
      = (Finset.univ : Finset (Fin 1000)).fold max (Ideal.ofBits .f32 0xFF800000#32) (fun k => x (ix3 r p k)) := by
  have h : S64x16x1000.Reduces [2] S64x16 := by decide
  rw [Host.reduce_eq_fold_single FloatOps.maximumf x _ reducesTo_S64x16x1000_S64x16_d2 h h_S_]
  have hf : (x ∘ h.lift (ix2 r p)) = fun k : Fin 1000 => x (ix3 r p k) :=
    funext fun k => congrArg x (by funext c; apply Fin.ext; match c with | ⟨0, _⟩ => rfl | ⟨1, _⟩ => rfl | ⟨2, _⟩ => rfl)
  exact congrArg (fun f => Finset.fold max (Ideal.ofBits .f32 0xFF800000#32) f (Finset.univ : Finset (Fin 1000))) hf

/-- Select on "w < 0 signed" between w + 16000 and w. -/
theorem wrap_word (w : BitVec 32) :
    Scalar.select (IntOp.cmpi .slt w 0#32) (IntOp.addi w 16000#32) w = if w.slt 0#32 then w + 16000#32 else w := by
  unfold Scalar.select IntOp.cmpi IntOp.addi
  cases w.slt 0#32 <;> rfl

/-! ## The index functions of the layout operations, at coordinates -/

local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

/-- Column cc of row p of the partition map, in the flattened map of 800000 words. -/
abbrev flatCol (p : Fin 16) (cc : Fin 50000) : Fin 800000 :=
  ⟨p.val * 50000 + cc.val, by have := p.isLt; have := cc.isLt; omega⟩

theorem lidx_v0_at (r : Fin 64) (n : Fin 16000) (k : Fin 2048) : lidx_main_v0 (ix2 r n) k = ix2 r k := by idx2
theorem ridx_v0_at (r : Fin 64) (n : Fin 16000) (k : Fin 2048) : ridx_main_v0 (ix2 r n) k = ix2 n k := by idx2
theorem idx_v1_v2_at (r : Fin 64) (n : Fin 16000) : idx_main_v1 (idx_main_v2 (ix2 r n)) = ix1 n := by idx1

/-- [64,16,1000] read out of [64,16000]: entry (r, p, k) is column p·1000 + k of row r. -/
theorem idx_v4_at (r : Fin 64) (p : Fin 16) (k : Fin 1000) : idx_main_v4 (ix3 r p k) = ix2 r (Cert.Spec.flat p k) := by
  have hr := r.isLt; have hp := p.isLt; have hk := k.isLt
  funext a; refine Fin.ext ?_
  match a with
  | ⟨0, _⟩ => show ((r.val * 16 + p.val) * 1000 + k.val) / 16000 = r.val; omega
  | ⟨1, _⟩ => show ((r.val * 16 + p.val) * 1000 + k.val) % 16000 = p.val * 1000 + k.val; omega

theorem idx_c3_c4_at (r : Fin 64) (p : Fin 16) (k : Fin 1000) :
    idx_main_call0_v3 (idx_main_call0_v4 (ix3 r p k)) = ix2 r p := by idx2
theorem idx_c7_at (r : Fin 64) (p : Fin 16) (k : Fin 1000) : idx_main_call0_v7 (ix2 r p) k = ix3 r p k := by idx3
theorem idx_c8_c10_at (r : Fin 64) (p : Fin 16) (k : Fin 1000) :
    idx_main_call0_v8 (idx_main_call0_v10 (ix3 r p k)) = ix2 r p := by idx2

/-- [64,16000] read out of [64,16,1000]: column n of row r is entry (r, n / 1000, n % 1000). -/
theorem idx_v7_at (r : Fin 64) (n : Fin 16000) :
    idx_main_v7 (ix2 r n) = ix3 r (Cert.Spec.blockOf n) (Cert.Spec.placeOf n) := by
  have hr := r.isLt; have hn := n.isLt
  funext a; refine Fin.ext ?_
  match a with
  | ⟨0, _⟩ => show (r.val * 16000 + n.val) / 16000 = r.val; omega
  | ⟨1, _⟩ => show (r.val * 16000 + n.val) / 1000 % 16 = n.val / 1000; omega
  | ⟨2, _⟩ => show (r.val * 16000 + n.val) % 1000 = n.val % 1000; omega

/-- The flattened partition map: word p·50000 + cc is the map's entry (p, cc). -/
theorem idx_v8_at (p : Fin 16) (cc : Fin 50000) : idx_main_v8 (ix1 (flatCol p cc)) = ix2 p cc := by
  have hp := p.isLt; have hc := cc.isLt
  funext a; refine Fin.ext ?_
  match a with
  | ⟨0, _⟩ => show (p.val * 50000 + cc.val) / 50000 = p.val; omega
  | ⟨1, _⟩ => show (p.val * 50000 + cc.val) % 50000 = cc.val; omega

theorem idx_v14_at (q : Fin 800000) : idx_main_v14 (ix2 q (0 : Fin 1)) = ix1 q := by idx1

/-- [64,16,50000] read out of [64,800000]: entry (r, p, cc) is column p·50000 + cc of row r. -/
theorem idx_v16_at (r : Fin 64) (p : Fin 16) (cc : Fin 50000) : idx_main_v16 (ix3 r p cc) = ix2 r (flatCol p cc) := by
  have hr := r.isLt; have hp := p.isLt; have hc := cc.isLt
  funext a; refine Fin.ext ?_
  match a with
  | ⟨0, _⟩ => show ((r.val * 16 + p.val) * 50000 + cc.val) / 800000 = r.val; omega
  | ⟨1, _⟩ => show ((r.val * 16 + p.val) * 50000 + cc.val) % 800000 = p.val * 50000 + cc.val; omega

theorem idx_v17_at (r : Fin 64) (cc : Fin 50000) (p : Fin 16) : idx_main_v17 (ix2 r cc) p = ix3 r p cc := by idx3
theorem idx_v18_at (r : Fin 64) (cc : Fin 50000) : idx_main_v18 (ix1 r) cc = ix2 r cc := by idx2
theorem idx_v19_v20_at (r : Fin 64) (cc : Fin 50000) : idx_main_v19 (idx_main_v20 (ix2 r cc)) = ix1 r := by idx1

/-! ## The stages, each read as the function of the specification -/

section Stages
variable (x0 : (⟨S64x2048, .f32⟩ : BufTy).Contents (Elt Ideal)) (x1 : (⟨S16000x2048, .f32⟩ : BufTy).Contents (Elt Ideal))
  (x2 : (⟨S16000, .f32⟩ : BufTy).Contents (Elt Ideal)) (x3 : (⟨S16x50000, .i32⟩ : BufTy).Contents (Elt Ideal))

/-- The matrix product plus the broadcast bias is the logit. -/
theorem v3_at (r : Fin 64) (n : Fin 16000) :
    val_main_v3 (F := Ideal) x0 x1 x2 (ix2 r n) = Cert.Spec.rlogit x0 x1 x2 r n := by
  rw [val_main_v3_apply, val_main_v0_apply, val_main_v2_apply, val_main_v1_apply, idx_v1_v2_at]
  simp only [lidx_v0_at, ridx_v0_at]
  rfl

theorem v4_at (r : Fin 64) (p : Fin 16) (k : Fin 1000) :
    val_main_v4 (F := Ideal) x0 x1 x2 (ix3 r p k) = Cert.Spec.rlogit x0 x1 x2 r (Cert.Spec.flat p k) := by
  rw [val_main_v4_apply, idx_v4_at, v3_at]

/-- The maximum over a partitioning's 1000 logits, started from -∞. -/
theorem call0_v0_at (r : Fin 64) (p : Fin 16) :
    val_main_call0_v0 (F := Ideal) x0 x1 x2 (ix2 r p)
      = (Finset.univ : Finset (Fin 1000)).fold max Cert.Spec.negInf
          (fun k => Cert.Spec.rlogit x0 x1 x2 r (Cert.Spec.flat p k)) := by
  unfold val_main_call0_v0 val_main_call0_cst
  refine (reduce_max_read _ r p).trans ?_
  exact congrArg (fun f => Finset.fold max Cert.Spec.negInf f (Finset.univ : Finset (Fin 1000)))
    (funext fun k => v4_at x0 x1 x2 r p k)

theorem call0_v2_at (r : Fin 64) (p : Fin 16) :
    val_main_call0_v2 (F := Ideal) x0 x1 x2 (ix2 r p) = Cert.Spec.rmax x0 x1 x2 r p := by
  rw [val_main_call0_v2_apply, val_main_call0_v1_apply, val_main_call0_cst_0_apply, call0_v0_at]
  rfl

theorem call0_v5_at (r : Fin 64) (p : Fin 16) (k : Fin 1000) :
    val_main_call0_v5 (F := Ideal) x0 x1 x2 (ix3 r p k) = Cert.Spec.rshift x0 x1 x2 r p k := by
  rw [val_main_call0_v5_apply, v4_at, val_main_call0_v4_apply, val_main_call0_v3_apply, idx_c3_c4_at, call0_v2_at]
  rfl

/-- The sum of the shifted exponentials, started from the host's zero word. -/
theorem call0_v7_at (r : Fin 64) (p : Fin 16) :
    val_main_call0_v7 (F := Ideal) x0 x1 x2 (ix2 r p)
      = Ideal.ofBits .f32 0x00000000#32 + ∑ k : Fin 1000, Ideal.exp (Cert.Spec.rshift x0 x1 x2 r p k) := by
  rw [val_main_call0_v7_apply, val_main_call0_cst_1_apply]
  simp only [idx_c7_at, val_main_call0_v6_apply, call0_v5_at]
  rfl

theorem call0_v10_at (r : Fin 64) (p : Fin 16) (k : Fin 1000) :
    val_main_call0_v10 (F := Ideal) x0 x1 x2 (ix3 r p k) = Cert.Spec.rlse x0 x1 x2 r p := by
  rw [val_main_call0_v10_apply, val_main_call0_v9_apply, val_main_call0_v8_apply, idx_c8_c10_at, call0_v7_at]
  rfl

/-- The exponential of the log-softmax, in the flat table of 16000. -/
theorem v7_at (r : Fin 64) (n : Fin 16000) :
    val_main_v7 (F := Ideal) x0 x1 x2 (ix2 r n) = Cert.Spec.rprob x0 x1 x2 r n := by
  rw [val_main_v7_apply, idx_v7_at, val_main_v6_apply, val_main_v5_apply, call0_v5_at, call0_v10_at]
  rfl

/-- The start word of flattened column q: the map's word, 16000 added when it is negative. -/
theorem v14_at (p : Fin 16) (cc : Fin 50000) :
    val_main_v14 (F := Ideal) x3 (ix2 (flatCol p cc) (0 : Fin 1))
      = (if (x3 (ix2 p cc)).slt 0#32 then x3 (ix2 p cc) + 16000#32 else x3 (ix2 p cc)) := by
  rw [val_main_v14_apply, idx_v14_at, val_main_v13_apply, val_main_v10_apply, val_main_v12_apply, val_main_v8_apply,
    val_main_v9_apply, val_main_c_apply, val_main_v11_apply, val_main_c_0_apply, idx_v8_at]
  exact wrap_word _

/-- The gathered probability of class cc in partitioning p. -/
theorem v16_at (r : Fin 64) (p : Fin 16) (cc : Fin 50000) :
    val_main_v16 (F := Ideal) x0 x1 x2 x3 (ix3 r p cc)
      = Cert.Spec.rprob x0 x1 x2 r (Cert.Spec.ridx x3 p cc) := by
  rw [val_main_v16_apply, idx_v16_at]
  unfold val_main_v15
  rw [gather_read, v14_at, v7_at]
  rfl

theorem v17_at (r : Fin 64) (cc : Fin 50000) :
    val_main_v17 (F := Ideal) x0 x1 x2 x3 (ix2 r cc) = Cert.Spec.rout x0 x1 x2 x3 r cc := by
  rw [val_main_v17_apply, val_main_cst_apply]
  simp only [idx_v17_at, v16_at]
  rfl

theorem v18_at (r : Fin 64) :
    val_main_v18 (F := Ideal) x0 x1 x2 x3 (ix1 r) = Cert.Spec.rrow x0 x1 x2 x3 r := by
  rw [val_main_v18_apply, val_main_cst_1_apply]
  simp only [idx_v18_at, v17_at]
  rfl

/-- The last stage is the specification's reference result. -/
theorem res_val : val_main_v24 (F := Ideal) x0 x1 x2 x3 = Cert.Spec.refResult x0 x1 x2 x3 := by
  funext i
  obtain ⟨r, cc, rfl⟩ : ∃ (r : Fin 64) (cc : Fin 50000), i = ix2 r cc := ⟨i 0, i 1, eq_ix2 i⟩
  rw [val_main_v24_apply, val_main_v23_apply, val_main_v21_apply, val_main_v22_apply, val_main_cst_2_apply,
    val_main_v20_apply, val_main_v19_apply, idx_v19_v20_at, v18_at, v17_at]
  simp only [Ideal.hostUnary_log_def, Ideal.addf_def, Ideal.hostDivf_def, Ideal.ofBits_def]
  rfl

end Stages

theorem res_eq (m : (ℓ : Loc nD τ sig) → Buf (Elt Ideal) ℓ) (c : Dev nD) :
    Cert.ReferenceIdeal.PRun.res_out0 (F := Ideal) m c
      = Cert.Spec.refResult (m ((c.tc : Thread nD τ).loc main_arg0)) (m ((c.tc : Thread nD τ).loc main_arg1))
          (m ((c.tc : Thread nD τ).loc main_arg2)) (m ((c.tc : Thread nD τ).loc main_arg3)) :=
  (val_main_v24_eq (F := Ideal) m c).trans (res_val _ _ _ _)

end Cert.ReferenceIdeal.RefValue

end
-- ==== Proof.Bridge1.lean ====
/-
  Stage 1 agrees: for real inputs the kernel's softmax, exp (l - m) / Σ exp (l - m), is the exponential of the
  reference's log-softmax, exp ((l - m) - log Σ exp (l - m)), with the same shift m (the row's largest logit).
-/
import proofs.«413212_j33294586478786_1_alg».proof.Proof.Spec

noncomputable section

open scoped BigOperators
open Idealize.ShloMosaic Idealize.ShloMosaic.ValueIdx

namespace Cert.Bridge

open Cert.Spec

/-! ## The two constant words -/

/-- The word a maximum starts from denotes the bottom element of the extended reals. -/
theorem negInf_eq_bot : negInf = (⊥ : EReal) := by
  simp [negInf, Ideal.ofBits, Ideal.ieee]

/-- The zero word denotes zero. -/
theorem zeroWord_eq : Ideal.ofBits .f32 0x00000000#32 = (0 : EReal) := by
  simp [Ideal.ofBits, Ideal.ieee]

/-! ## Real numbers inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The running maximum, started from the bottom element, of a nonempty finite family of reals is a real. -/
theorem fold_max_coe {ι : Type*} (g : ι → ℝ) (s : Finset ι) :
    s.Nonempty → ∃ m : ℝ, s.fold max (⊥ : EReal) (fun k => (g k : EReal)) = (m : EReal) := by
  induction s using Finset.cons_induction with
  | empty => intro hs; exact absurd hs Finset.not_nonempty_empty
  | cons a s ha ih =>
    intro _
    rw [Finset.fold_cons]
    rcases s.eq_empty_or_nonempty with rfl | hne
    · exact ⟨g a, by rw [Finset.fold_empty]; exact max_eq_left bot_le⟩
    · obtain ⟨m, hm⟩ := ih hne
      exact ⟨max (g a) m, by rw [hm]; exact (EReal.coe_strictMono.monotone.map_max).symm⟩

/-- The exponential of a real. -/
theorem exp_coe (t : ℝ) : Ideal.exp (t : EReal) = ((Real.exp t : ℝ) : EReal) := rfl

/-- The logarithm of a positive real. -/
theorem log_coe_pos {t : ℝ} (ht : 0 < t) : Ideal.log (t : EReal) = ((Real.log t : ℝ) : EReal) := by
  show (if t ≤ 0 then (⊥ : EReal) else ((Real.log t : ℝ) : EReal)) = _
  rw [if_neg (not_le.mpr ht)]

/-- The quotient of a real by a nonzero real. -/
theorem div_coe (a : ℝ) {t : ℝ} (ht : t ≠ 0) : Ideal.div (a : EReal) (t : EReal) = ((a / t : ℝ) : EReal) := by
  unfold Ideal.div
  rw [if_neg (by exact_mod_cast ht), ← EReal.coe_inv, ← EReal.coe_mul, div_eq_mul_inv]

/-! ## Softmax against the exponential of log-softmax, over the reals -/

/-- For real logits g and any real shift m: exp (g k - m) / Σ exp (g j - m) = exp ((g k - m) - log (0 + Σ exp (g j - m))).
    The sum is a positive real, so its logarithm is the real logarithm and exp (a - log S) = exp a / S. -/
theorem softmax_eq {ι : Type*} [Fintype ι] [Nonempty ι] (g : ι → ℝ) (m : ℝ) (k : ι) :
    Ideal.div (Ideal.exp ((g k : EReal) - (m : EReal))) (∑ j, Ideal.exp ((g j : EReal) - (m : EReal)))
      = Ideal.exp (((g k : EReal) - (m : EReal))
          - Ideal.log ((0 : EReal) + ∑ j, Ideal.exp ((g j : EReal) - (m : EReal)))) := by
  have hS : 0 < ∑ j, Real.exp (g j - m) := Finset.sum_pos (fun j _ => Real.exp_pos _) Finset.univ_nonempty
  have hsum : (∑ j, Ideal.exp ((g j : EReal) - (m : EReal))) = ((∑ j, Real.exp (g j - m) : ℝ) : EReal) := by
    rw [coe_sum]; rfl
  rw [hsum, zero_add, log_coe_pos hS, ← EReal.coe_sub, exp_coe, div_coe _ hS.ne', ← EReal.coe_sub, exp_coe]
  congr 1
  rw [Real.exp_sub (g k - m), Real.exp_log hS]

/-! ## The flat table's row of (p, k) lies in block p at place k -/

theorem blockOf_flat (p : Fin 16) (k : Fin 1000) : blockOf (flat p k) = p :=
  Fin.ext (by show (p.val * 1000 + k.val) / 1000 = p.val; have := k.isLt; omega)

theorem placeOf_flat (p : Fin 16) (k : Fin 1000) : placeOf (flat p k) = k :=
  Fin.ext (by show (p.val * 1000 + k.val) % 1000 = k.val; have := k.isLt; omega)

/-- The kernel's logit in its own layout is the reference's logit of the flat table's row. -/
theorem logit_eq (x : FVec Ideal ⟨2, ![64, 2048]⟩ .f32) (W : FVec Ideal ⟨2, ![16000, 2048]⟩ .f32) (b : FVec Ideal ⟨1, ![16000]⟩ .f32)
    (p : Fin 16) (r : Fin 64) (k : Fin 1000) : logit x (w3of W) (b3of b) p r k = rlogit x W b r (flat p k) := rfl

theorem prob_eq (x : FVec Ideal ⟨2, ![64, 2048]⟩ .f32) (W : FVec Ideal ⟨2, ![16000, 2048]⟩ .f32) (b : FVec Ideal ⟨1, ![16000]⟩ .f32)
    (hx : AllReal x) (hW : AllReal W) (hb : AllReal b) (p : Fin 16) (r : Fin 64) (k : Fin 1000) :
    prob x (w3of W) (b3of b) p r k = rprob x W b r (flat p k) := by
  choose fx hfx using hx
  choose fW hfW using hW
  choose fb hfb using hb
  -- every logit of the row is a real number
  have hl : ∀ j : Fin 1000, rlogit x W b r (flat p j)
      = (((∑ d : Fin 2048, fx (ix2 r d) * fW (ix2 (flat p j) d)) + fb (ix1 (flat p j)) : ℝ) : EReal) := by
    intro j
    simp only [rlogit, hfx, hfW, hfb, EReal.coe_add, coe_sum, EReal.coe_mul]
  -- so the row's maximum is a real number, the same on both sides
  obtain ⟨m, hm⟩ := fold_max_coe
    (fun j : Fin 1000 => (∑ d : Fin 2048, fx (ix2 r d) * fW (ix2 (flat p j) d)) + fb (ix1 (flat p j)))
    Finset.univ Finset.univ_nonempty
  have hrow : rowMax x (w3of W) (b3of b) p r = (m : EReal) := by
    unfold rowMax
    rw [negInf_eq_bot]
    simp only [logit_eq, hl]
    exact hm
  have hrmax : rmax x W b r p = (m : EReal) := by
    unfold rmax
    rw [negInf_eq_bot]
    simp only [hl]
    rw [hm]
    exact max_eq_right bot_le
  unfold prob rprob denom expo rlse rshift
  rw [blockOf_flat, placeOf_flat, zeroWord_eq, hrow, hrmax]
  simp only [logit_eq, hl]
  exact softmax_eq _ m k

end Cert.Bridge

end
-- ==== Proof.Bridge2.lean ====
/-
  Stage 2 agrees: when every word of row p of the partition map lies in partitioning p's own block, the one-hot product
  picks exactly the flat table's entry the reference looks up; and the masked tile-by-tile row sum is the sum over the
  50000 classes.
-/
import proofs.«413212_j33294586478786_1_alg».proof.Proof.Spec

noncomputable section

open scoped BigOperators
open Idealize.ShloMosaic Idealize.ShloMosaic.ValueIdx

namespace Cert.Bridge

open Cert.Spec

/-! ## Words: every number in sight is far below 2³¹, so nothing wraps and nothing is negative -/

/-- The word of `p * 1000 + j`, less the word of `p` times the word of 1000, is the word of `j`. -/
theorem word_block_sub (p j : ℕ) (hp : p < 16) (hj : j < 1000) :
    BitVec.ofNat 32 (p * 1000 + j) - BitVec.ofNat 32 p * 1000#32 = BitVec.ofNat 32 j := by
  apply BitVec.eq_of_toNat_eq
  simp only [BitVec.toNat_sub, BitVec.toNat_mul, BitVec.toNat_ofNat]
  omega

/-- Two numbers below 2³² with the same word are the same number. -/
theorem ofNat_eq_iff (a b : ℕ) (ha : a < 2 ^ 32) (hb : b < 2 ^ 32) :
    BitVec.ofNat 32 a = BitVec.ofNat 32 b ↔ a = b := by
  constructor
  · intro h
    have h' := congrArg BitVec.toNat h
    simp only [BitVec.toNat_ofNat] at h'
    omega
  · intro h
    rw [h]

/-- The word of a number up to 15999 is not negative, so the wrap leaves it alone; its signed value is the number,
    and the clamp into the table leaves that alone too. -/
theorem wrap_clamp_word (n : ℕ) (hn : n ≤ 15999) :
    min (if (BitVec.ofNat 32 n).slt 0#32 then BitVec.ofNat 32 n + 16000#32 else BitVec.ofNat 32 n).toInt.toNat 15999
      = n := by
  have hN : (BitVec.ofNat 32 n).toNat = n := by
    rw [BitVec.toNat_ofNat]
    exact Nat.mod_eq_of_lt (by omega)
  have ht : (BitVec.ofNat 32 n).toInt = (n : ℤ) := by
    rw [BitVec.toInt_eq_toNat_of_lt (by rw [hN]; omega), hN]
  have hs : (BitVec.ofNat 32 n).slt 0#32 = false := by
    simp only [BitVec.slt, ht, BitVec.toInt_zero, decide_eq_false_iff_not, not_lt]
    exact Int.natCast_nonneg n
  rw [hs]
  simp only [Bool.false_eq_true, if_false, ht, Int.toNat_natCast]
  exact Nat.min_eq_left hn

/-! ## The one-hot product is the lookup -/

/-- A real class's column of the padded map is the map's own word. -/
theorem ppof_padCol (part : IVec ⟨2, ![16, 50000]⟩ 32) (p : Fin 16) (cc : Fin 50000) :
    ppof part (ix3 p 0 (padCol cc)) = part (ix2 p cc) := by
  unfold ppof
  have hlt : ((ix3 p (0 : Fin 1) (padCol cc)) 2).val < 50000 := cc.isLt
  rw [dif_pos hlt]

/-- When the class's word is partition `j` of the partitioning's block, the one-hot entry at `k` says `k = j`. -/
theorem hit_of_block (part : IVec ⟨2, ![16, 50000]⟩ 32) (p : Fin 16) (cc : Fin 50000) (j : Fin 1000)
    (h : part (ix2 p cc) = BitVec.ofNat 32 (p.val * 1000 + j.val)) (k : Fin 1000) :
    hit (ppof part) p k (padCol cc) = if k = j then 1 else 0 := by
  unfold hit
  rw [ppof_padCol, h, word_block_sub _ _ p.isLt j.isLt]
  have hkj : (BitVec.ofNat 32 k.val = BitVec.ofNat 32 j.val) ↔ k = j := by
    rw [ofNat_eq_iff _ _ (by omega) (by omega)]
    exact Fin.val_inj
  simp only [hkj]

/-- So the sum over the partitions of probability times one-hot entry is the one probability at `j`
    (a product with 1 or with 0 in the extended reals needs no finiteness). -/
theorem inner_collapse (part : IVec ⟨2, ![16, 50000]⟩ 32) (P : FVec Ideal ⟨3, ![16, 64, 1000]⟩ .f32)
    (p : Fin 16) (r : Fin 64) (cc : Fin 50000) (j : Fin 1000)
    (h : part (ix2 p cc) = BitVec.ofNat 32 (p.val * 1000 + j.val)) :
    ∑ k : Fin 1000, P (ix3 p r k) * hit (ppof part) p k (padCol cc) = P (ix3 p r j) := by
  simp only [hit_of_block part p cc j h, mul_ite, mul_one, mul_zero]
  exact Fintype.sum_ite_eq' j (fun k => P (ix3 p r k))

/-- And the reference's row of the flat table for that word is row `j` of the partitioning's block. -/
theorem ridx_of_block (part : IVec ⟨2, ![16, 50000]⟩ 32) (p : Fin 16) (cc : Fin 50000) (j : Fin 1000)
    (h : part (ix2 p cc) = BitVec.ofNat 32 (p.val * 1000 + j.val)) :
    ridx part p cc = flat p j := by
  apply Fin.ext
  show min (if (part (ix2 p cc)).slt 0#32 then part (ix2 p cc) + 16000#32 else part (ix2 p cc)).toInt.toNat 15999
    = p.val * 1000 + j.val
  rw [h]
  exact wrap_clamp_word _ (by omega)

theorem outRaw_eq (part : IVec ⟨2, ![16, 50000]⟩ 32) (hp : InBlock part) (P : FVec Ideal ⟨3, ![16, 64, 1000]⟩ .f32)
    (Q : Fin 64 → Fin 16000 → EReal) (hPQ : ∀ (p : Fin 16) (r : Fin 64) (k : Fin 1000), P (ix3 p r k) = Q r (flat p k))
    (r : Fin 64) (cc : Fin 50000) :
    outRaw (ppof part) P r (padCol cc) = ∑ p : Fin 16, Q r (ridx part p cc) := by
  unfold outRaw
  refine Finset.sum_congr rfl (fun p _ => ?_)
  obtain ⟨j, hj⟩ := hp p cc
  rw [inner_collapse part P p r cc j hj, hPQ, ridx_of_block part p cc j hj]

/-! ## The masked tile-by-tile sum is the sum over the real classes -/

/-- A sum over `a` tiles of `b` consecutive places each is the sum over the first `a * b` places. -/
theorem sum_tiles {M : Type*} [AddCommMonoid M] (g : ℕ → M) (b : ℕ) : ∀ a : ℕ,
    ∑ t : Fin a, ∑ j : Fin b, g (t.val * b + j.val) = ∑ n ∈ Finset.range (a * b), g n
  | 0 => by simp
  | a + 1 => by
    rw [Fin.sum_univ_castSucc]
    simp only [Fin.val_castSucc, Fin.val_last]
    rw [sum_tiles g b a, Nat.succ_mul, Finset.sum_range_add]
    congr 1
    exact Fin.sum_univ_eq_sum_range (fun j => g (a * b + j)) b

/-- When the places from `N` on hold zero and the tiles cover `N` places and `c` more, the tiled sum is the sum
    over the first `N` places. -/
theorem sum_tiles_masked {M : Type*} [AddCommMonoid M] (g : ℕ → M) (a b N c : ℕ) (hab : a * b = N + c)
    (hg : ∀ n, N ≤ n → g n = 0) :
    ∑ t : Fin a, ∑ j : Fin b, g (t.val * b + j.val) = ∑ n : Fin N, g n.val := by
  rw [sum_tiles g b a, hab, Finset.sum_range_add, Fin.sum_univ_eq_sum_range,
    Finset.sum_eq_zero (fun x _ => hg _ (Nat.le_add_right _ _)), add_zero]

/-- The gathered sum at place `n` of the row when `n` is a real class, zero at the places past them. -/
def colOrZero (pp : IVec ⟨3, ![16, 1, 50176]⟩ 32) (P : FVec Ideal ⟨3, ![16, 64, 1000]⟩ .f32) (r : Fin 64) (n : ℕ) : EReal :=
  if h : n < 50000 then outRaw pp P r ⟨n, by omega⟩ else 0

theorem rowSum_eq (pp : IVec ⟨3, ![16, 1, 50176]⟩ 32) (P : FVec Ideal ⟨3, ![16, 64, 1000]⟩ .f32) (r : Fin 64) :
    rowSum pp P r = ∑ cc : Fin 50000, outRaw pp P r (padCol cc) := by
  have h1 : rowSum pp P r = ∑ t : Fin 49, ∑ j : Fin 1024, colOrZero pp P r (t.val * 1024 + j.val) := rfl
  rw [h1, sum_tiles_masked (colOrZero pp P r) 49 1024 50000 176 (by norm_num)
    (fun n hn => dif_neg (by omega))]
  refine Finset.sum_congr rfl (fun cc _ => ?_)
  exact dif_pos cc.isLt

end Cert.Bridge

end
-- ==== Proof.Bridge.lean ====
/-
  The two results are one function of the arguments, for real inputs and a partition map whose rows stay in their
  own blocks.
-/
import proofs.«413212_j33294586478786_1_alg».proof.Proof.Spec
import proofs.«413212_j33294586478786_1_alg».proof.Proof.Bridge1
import proofs.«413212_j33294586478786_1_alg».proof.Proof.Bridge2
import Idealize.ShloMosaic.PureOps.Ideal.Laws

noncomputable section

open scoped BigOperators
open Idealize.ShloMosaic Idealize.ShloMosaic.ValueIdx

namespace Cert.Bridge

open Cert.Spec

theorem result_eq (x : FVec Ideal ⟨2, ![64, 2048]⟩ .f32) (W : FVec Ideal ⟨2, ![16000, 2048]⟩ .f32) (b : FVec Ideal ⟨1, ![16000]⟩ .f32)
    (part : IVec ⟨2, ![16, 50000]⟩ 32) (hx : AllReal x) (hW : AllReal W) (hb : AllReal b) (hp : InBlock part) :
    kernelResult x W b part = refResult x W b part := by
  funext i
  obtain ⟨r0, c0, rfl⟩ : ∃ (r0 : Fin 64) (c0 : Fin 50000), i = ix2 r0 c0 := ⟨i 0, i 1, eq_ix2 i⟩
  have hP : ∀ (p : Fin 16) (r : Fin 64) (k : Fin 1000),
      probArr x (w3of W) (b3of b) (ix3 p r k) = rprob x W b r (flat p k) := fun p r k => prob_eq x W b hx hW hb p r k
  have ho : ∀ (r : Fin 64) (cc : Fin 50000),
      outRaw (ppof part) (probArr x (w3of W) (b3of b)) r (padCol cc) = rout x W b part r cc := fun r cc => by
    rw [outRaw_eq part hp _ (rprob x W b) hP r cc]
    unfold rout
    rw [Ideal.ofBits_zero_f32, zero_add]
  have hr : ∀ r : Fin 64, rowSum (ppof part) (probArr x (w3of W) (b3of b)) r = rrow x W b part r := fun r => by
    rw [rowSum_eq]
    unfold rrow
    rw [Ideal.ofBits_zero_f32, zero_add]
    exact Finset.sum_congr rfl fun cc _ => ho r cc
  show Ideal.log (Ideal.div (outRaw (ppof part) (probArr x (w3of W) (b3of b)) r0 (padCol c0))
      (rowSum (ppof part) (probArr x (w3of W) (b3of b)) r0) + eps) = _
  rw [ho r0 c0, hr r0]
  rfl

end Cert.Bridge

end
-- ==== Proof.PreDecode.lean ====
/-
  What the precondition says, decoded: every entry of the three float arguments is a real number, and row p of the
  partition map holds ids of partitioning p's own block [1000 p, 1000 p + 1000).
-/
import proofs.«413212_j33294586478786_1_alg».proof.Proof.Gen.Pre_finite_inputs
import proofs.«413212_j33294586478786_1_alg».proof.Proof.Spec
import Idealize.ShloMosaic.Lib.ReduceAll
import Idealize.ShloMosaic.Lib.StableHlo.Predicate
import Idealize.ShloMosaic.Lib.Pipeline.Value

noncomputable section

open scoped BigOperators
open Idealize.ShloMosaic Idealize.ShloMosaic.ValueIdx

namespace Cert.PreDecode

open Cert.Spec

/-- The result shape of a reduction over every axis has one index. -/
instance : Subsingleton Cert.Pre_finite_inputs.S_.Idx := ⟨fun a b => funext fun d => d.elim0⟩

/-- An extended real whose absolute value lies strictly below +∞ (the word 0x7F800000) is a real number. -/
theorem real_of_abs_lt_top (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  have h' : max v (-v) < ⊤ := by
    simpa [StableHlo.Predicate.ofBool_eq_one_iff] using h
  rw [max_lt_iff] at h'
  induction v using EReal.rec with
  | bot => simp at h'
  | coe r => exact ⟨r, rfl⟩
  | top => simp at h'

/-- A word that is at least 1000 p and below 1000 p + 1000 as a signed number, for p below 16, is the word of
    1000 p + j for some j below 1000: the bounds are small and non-negative, so the signed reading of the word is
    its unsigned one. -/
theorem word_in_block (w : BitVec 32) (p : Fin 16)
    (h1 : IntOp.cmpi .sge w (IntOp.muli (BitVec.ofNat 32 p.val) 1000#32) = 1#1)
    (h2 : IntOp.cmpi .slt w (IntOp.addi (IntOp.muli (BitVec.ofNat 32 p.val) 1000#32) 1000#32) = 1#1) :
    ∃ j : Fin 1000, w = BitVec.ofNat 32 (p.val * 1000 + j.val) := by
  have hp := p.isLt
  have elo : IntOp.muli (BitVec.ofNat 32 p.val) 1000#32 = BitVec.ofNat 32 (p.val * 1000) := by
    apply BitVec.eq_of_toNat_eq
    simp only [IntOp.muli, BitVec.toNat_mul, BitVec.toNat_ofNat]
    omega
  have ehi : IntOp.addi (BitVec.ofNat 32 (p.val * 1000)) 1000#32 = BitVec.ofNat 32 (p.val * 1000 + 1000) := by
    apply BitVec.eq_of_toNat_eq
    simp only [IntOp.addi, BitVec.toNat_add, BitVec.toNat_ofNat]
    omega
  rw [elo] at h1 h2
  rw [ehi] at h2
  unfold IntOp.cmpi at h1 h2
  rw [StableHlo.Predicate.ofBool_eq_one_iff] at h1 h2
  simp only [BitVec.sle, BitVec.slt, decide_eq_true_eq] at h1 h2
  rw [StableHlo.Predicate.toInt_ofNat_small _ (by omega)] at h1 h2
  have hw := w.isLt
  have hc := BitVec.toInt_eq_toNat_cond w
  have hn : w.toNat < 16000 ∧ p.val * 1000 ≤ w.toNat ∧ w.toNat < p.val * 1000 + 1000 := by
    split_ifs at hc <;> omega
  refine ⟨⟨w.toNat - p.val * 1000, by omega⟩, ?_⟩
  apply BitVec.eq_of_toNat_eq
  simp only [BitVec.toNat_ofNat]
  omega

theorem pre_decode (x : FVec Ideal ⟨2, ![64, 2048]⟩ .f32) (W : FVec Ideal ⟨2, ![16000, 2048]⟩ .f32) (b : FVec Ideal ⟨1, ![16000]⟩ .f32)
    (part : IVec ⟨2, ![16, 50000]⟩ 32)
    (h : Cert.Pre_finite_inputs.fn (F := Ideal) x W b part = (fun _ => 1#1)) :
    AllReal x ∧ AllReal W ∧ AllReal b ∧ InBlock part := by
  have h0 := congrFun h ValueIdx.ix0
  unfold Cert.Pre_finite_inputs.fn Cert.Pre_finite_inputs.fn_part1 at h0
  dsimp only at h0
  -- the result is the conjunction of four tests
  obtain ⟨h123, h4⟩ := IntOp.andi_eq_one.1 h0
  obtain ⟨h12, h3⟩ := IntOp.andi_eq_one.1 h123
  obtain ⟨h1, h2⟩ := IntOp.andi_eq_one.1 h12
  -- each test is a conjunction over every index of its array
  have a1 := Host.reduce_andi_all _ _ _ _ _ h1
  have a2 := Host.reduce_andi_all _ _ _ _ _ h2
  have a3 := Host.reduce_andi_all _ _ _ _ _ h3
  have a4 := Host.reduce_andi_all _ _ _ _ _ h4
  refine ⟨fun i => real_of_abs_lt_top _ (a1 i), fun i => real_of_abs_lt_top _ (a2 i),
    fun i => real_of_abs_lt_top _ (a3 i), fun p cc => ?_⟩
  obtain ⟨c1, c2⟩ := IntOp.andi_eq_one.1 (a4 (ix2 p cc))
  exact word_in_block _ p c1 c2

end Cert.PreDecode

end
-- ==== Proof.lean ====
/-
  A combinatorial classifier: 16 partitionings of 50000 classes into 1000 partitions each.  For a batch of 64 feature
  rows the programs compute, per partitioning, a softmax over its 1000 partitions of the logits x Wᵀ + b; per class,
  the sum over the partitionings of the probability of the partition the class falls in; and the logarithm of that sum
  renormalised over the classes, a small constant added.

  The kernel program does it in three kernels: the softmax written as exp (l - max) / Σ exp (l - max); the lookup
  written as a product with a one-hot matrix built from the partition map (tile by tile over the classes, the map's
  word taken relative to the partitioning's own block of 1000), with the row sums accumulated over the tiles under a
  mask that leaves out the padded columns; the normalisation and the logarithm.  The reference takes the exponential of
  a log-softmax, looks the probabilities up in the flat table of 16000 through the partition map, and sums.

  Over the extended reals the two agree wherever every input entry is a real number (then every logit, every shift
  and every normaliser is a real, the normalisers are positive, and exp (a - log s) = exp a / s) and every word of
  row p of the partition map lies in partitioning p's own block [1000 p, 1000 p + 1000) (then the one-hot column of a
  class has exactly one entry, at the place the reference's lookup reads).  Both are what the precondition says.
  The sums are re-associated and re-indexed freely: addition of extended reals is commutative and associative.

  The modules: Spec (the mathematics, index by index), Region0 / R1Pay / R1Cases / Region1 / Region2 (each kernel's
  result array from the arrays it finds), KernelValue (the three chained through the host operations between them),
  RefValue (the reference's result read the same way), Bridge1 / Bridge2 / Bridge (the two results are one function),
  PreDecode (what the precondition says).
-/
import proofs.«413212_j33294586478786_1_alg».proof.Defs
import proofs.«413212_j33294586478786_1_alg».proof.Proof.Gen.Kernel
import proofs.«413212_j33294586478786_1_alg».proof.Proof.Gen.Kernel.Frame
import proofs.«413212_j33294586478786_1_alg».proof.Proof.Gen.KernelIdeal
import proofs.«413212_j33294586478786_1_alg».proof.Proof.Gen.KernelIdeal.Frame
import proofs.«413212_j33294586478786_1_alg».proof.Proof.Gen.ReferenceIdeal
import proofs.«413212_j33294586478786_1_alg».proof.Proof.Gen.Pre_finite_inputs
import proofs.«413212_j33294586478786_1_alg».proof.Proof.KernelRun
import proofs.«413212_j33294586478786_1_alg».proof.Proof.KernelValue
import proofs.«413212_j33294586478786_1_alg».proof.Proof.RefRun
import proofs.«413212_j33294586478786_1_alg».proof.Proof.RefValue
import proofs.«413212_j33294586478786_1_alg».proof.Proof.Bridge
import proofs.«413212_j33294586478786_1_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.PRun.run (F := Ideal) m ρ)

/-- Both programs end with the result array at the one function of the arguments: the kernel program's run names
    its result through the chain of the three kernels, the reference's run through its composed host operations, and
    under the precondition's two facts the two functions agree. -/
theorem algebraic : Cert.algebraic_KernelIdeal_ReferenceIdeal := by
  intro m ρ m' ρ' hpre hagree
  refine ⟨fun c => Cert.Spec.kernelResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KV.result_val m ρ c), (h c).2⟩)
      (Cert.KernelIdeal.RunV.run_result (F := Ideal) m ρ)
  · refine (θ_run Cert.ReferenceIdeal.defs _ _).mono (fun r h c => ⟨(h c).1.trans ?_, (h c).2⟩)
      (Cert.ReferenceIdeal.PRun.run (F := Ideal) m' ρ')
    obtain ⟨hx, hW, hb, hp⟩ := Cert.PreDecode.pre_decode _ _ _ _ (hpre c)
    refine (Cert.ReferenceIdeal.RefValue.res_eq m' c).trans ?_
    rw [(hagree c).1, (hagree c).2.1, (hagree c).2.2.1, (hagree c).2.2.2]
    exact (Cert.Bridge.result_eq _ _ _ _ hx hW hb hp).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
